-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v57)) (v1 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_v72) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S200000 : Shape := ⟨1, ![200000]⟩
abbrev S1000000 : Shape := ⟨1, ![1000000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg10
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S800000 32) (main_arg2 : IVec S800000 32) (main_arg3 : IVec S200000 32) (main_arg4 : IVec S200000 32) (main_arg5 : IVec S1000000 32) (main_arg6 : IVec S1000000 32) (main_arg7 : FVec F S128x128 .f32) (main_arg8 : FVec F S128 .f32) (main_arg9 : FVec F S128x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg7
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg8
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg9
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg10 main_v13 main_v16
-- ==== Kernel.lean ====
abbrev S50000x128 : Shape := ⟨2, ![50000, 128]⟩
abbrev S800000 : Shape := ⟨1, ![800000]⟩
abbrev S200000 : Shape := ⟨1, ![200000]⟩
abbrev S1000000 : Shape := ⟨1, ![1000000]⟩
abbrev S128x128 : Shape := ⟨2, ![128, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x128 : Shape := ⟨2, ![5000, 128]⟩
abbrev S5000x1 : Shape := ⟨2, ![5000, 1]⟩
abbrev S800000x128 : Shape := ⟨2, ![800000, 128]⟩
abbrev S1x128 : Shape := ⟨2, ![1, 128]⟩
abbrev S200000x1 : Shape := ⟨2, ![200000, 1]⟩
abbrev S200000x128 : Shape := ⟨2, ![200000, 128]⟩
abbrev S8000x128 : Shape := ⟨2, ![8000, 128]⟩
abbrev S8000x1 : Shape := ⟨2, ![8000, 1]⟩
abbrev S8000 : Shape := ⟨1, ![8000]⟩
abbrev S1000000x1 : Shape := ⟨2, ![1000000, 1]⟩
abbrev S1000000x128 : Shape := ⟨2, ![1000000, 128]⟩

abbrev nBuf : Space → Nat
  | .hbm => 109
  | .vmem => 40
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S200000, .i32⟩
  | .hbm, ⟨4, _⟩ => ⟨S200000, .i32⟩
  | .hbm, ⟨5, _⟩ => ⟨S1000000, .i32⟩
  | .hbm, ⟨6, _⟩ => ⟨S1000000, .i32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S50000x1, .f32⟩
  | .hbm, ⟨51, _⟩ => ⟨S1x128, .f32⟩
  | .hbm, ⟨52, _⟩ => ⟨S50000x128, .f32⟩
  | .hbm, ⟨53, _⟩ => ⟨S50000x1, .f32⟩
  | .hbm, ⟨54, _⟩ => ⟨S50000x128, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x128, .f32⟩
  | .hbm, ⟨64, _⟩ => ⟨S_, .f32⟩
  | .hbm, ⟨65, _⟩ => ⟨S50000x128, .f32⟩
  | .hbm, ⟨66, _⟩ => ⟨S800000x1, .i32⟩
  | .hbm, ⟨67, _⟩ => ⟨S50000x128, .f32⟩
  | .hbm, ⟨68, _⟩ => ⟨S50000x1, .f32⟩
  | .hbm, ⟨69, _⟩ => ⟨S1x128, .f32⟩
  | .hbm, ⟨70, _⟩ => ⟨S50000x128, .f32⟩
  | .hbm, ⟨71, _⟩ => ⟨S_, .i32⟩
  | .hbm, ⟨72, _⟩ => ⟨S200000, .i32⟩
  | .hbm, ⟨73, _⟩ => ⟨S200000, .i1⟩
  | .hbm, ⟨74, _⟩ => ⟨S_, .i32⟩
  | .hbm, ⟨75, _⟩ => ⟨S200000, .i32⟩
  | .hbm, ⟨76, _⟩ => ⟨S200000, .i32⟩
  | .hbm, ⟨77, _⟩ => ⟨S200000, .i32⟩
  | .hbm, ⟨78, _⟩ => ⟨S200000x1, .i32⟩
  | .hbm, ⟨79, _⟩ => ⟨S200000x128, .f32⟩
  | .hbm, ⟨80, _⟩ => ⟨S_, .i32⟩
  | .hbm, ⟨81, _⟩ => ⟨S200000, .i32⟩
  | .hbm, ⟨82, _⟩ => ⟨S200000, .i1⟩
  | .hbm, ⟨83, _⟩ => ⟨S_, .i32⟩
  | .hbm, ⟨84, _⟩ => ⟨S200000, .i32⟩
  | .hbm, ⟨85, _⟩ => ⟨S200000, .i32⟩
  | .hbm, ⟨86, _⟩ => ⟨S200000, .i32⟩
  | .hbm, ⟨87, _⟩ => ⟨S200000x1, .i32⟩
  | .hbm, ⟨88, _⟩ => ⟨S200000x128, .f32⟩
  | .hbm, ⟨89, _⟩ => ⟨S200000x1, .f32⟩
  | .hbm, ⟨90, _⟩ => ⟨S_, .i32⟩
  | .hbm, ⟨91, _⟩ => ⟨S1000000, .i32⟩
  | .hbm, ⟨92, _⟩ => ⟨S1000000, .i1⟩
  | .hbm, ⟨93, _⟩ => ⟨S_, .i32⟩
  | .hbm, ⟨94, _⟩ => ⟨S1000000, .i32⟩
  | .hbm, ⟨95, _⟩ => ⟨S1000000, .i32⟩
  | .hbm, ⟨96, _⟩ => ⟨S1000000, .i32⟩
  | .hbm, ⟨97, _⟩ => ⟨S1000000x1, .i32⟩
  | .hbm, ⟨98, _⟩ => ⟨S1000000x128, .f32⟩
  | .hbm, ⟨99, _⟩ => ⟨S_, .i32⟩
  | .hbm, ⟨100, _⟩ => ⟨S1000000, .i32⟩
  | .hbm, ⟨101, _⟩ => ⟨S1000000, .i1⟩
  | .hbm, ⟨102, _⟩ => ⟨S_, .i32⟩
  | .hbm, ⟨103, _⟩ => ⟨S1000000, .i32⟩
  | .hbm, ⟨104, _⟩ => ⟨S1000000, .i32⟩
  | .hbm, ⟨105, _⟩ => ⟨S1000000, .i32⟩
  | .hbm, ⟨106, _⟩ => ⟨S1000000x1, .i32⟩
  | .hbm, ⟨107, _⟩ => ⟨S1000000x128, .f32⟩
  | .hbm, ⟨108, _⟩ => ⟨S1000000x1, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S8000x128, .f32⟩
  | .local _ .vmem, ⟨29, _⟩ => ⟨S8000x128, .f32⟩
  | .local _ .vmem, ⟨30, _⟩ => ⟨S8000x128, .f32⟩
  | .local _ .vmem, ⟨31, _⟩ => ⟨S8000x128, .f32⟩
  | .local _ .vmem, ⟨32, _⟩ => ⟨S8000x1, .f32⟩
  | .local _ .vmem, ⟨33, _⟩ => ⟨S8000x1, .f32⟩
  | .local _ .vmem, ⟨34, _⟩ => ⟨S8000x128, .f32⟩
  | .local _ .vmem, ⟨35, _⟩ => ⟨S8000x128, .f32⟩
  | .local _ .vmem, ⟨36, _⟩ => ⟨S8000x128, .f32⟩
  | .local _ .vmem, ⟨37, _⟩ => ⟨S8000x128, .f32⟩
  | .local _ .vmem, ⟨38, _⟩ => ⟨S8000x1, .f32⟩
  | .local _ .vmem, ⟨39, _⟩ => ⟨S8000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v7 : Ref sig .tc := ⟨.hbm, 24, rfl⟩
abbrev main_cst_3 : Ref sig .tc := ⟨.hbm, 25, rfl⟩
abbrev main_v8 : Ref sig .tc := ⟨.hbm, 26, rfl⟩
abbrev main_v9 : Ref sig .tc := ⟨.hbm, 27, rfl⟩
abbrev main_cst_4 : Ref sig .tc := ⟨.hbm, 28, rfl⟩
abbrev main_call1_v0 : Ref sig .tc := ⟨.hbm, 29, rfl⟩
abbrev main_call1_v1 : Ref sig .tc := ⟨.hbm, 30, rfl⟩
abbrev main_v10 : Ref sig .tc := ⟨.hbm, 31, rfl⟩
abbrev main_cst_5 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_6 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_8 : Ref sig .tc := ⟨.hbm, 55, rfl⟩
abbrev main_v30 : Ref sig .tc := ⟨.hbm, 56, rfl⟩
abbrev main_v31 : Ref sig .tc := ⟨.hbm, 57, rfl⟩
abbrev main_c_9 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_10 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_c_11 : Ref sig .tc := ⟨.hbm, 71, rfl⟩
abbrev main_v43 : Ref sig .tc := ⟨.hbm, 72, rfl⟩
abbrev main_v44 : Ref sig .tc := ⟨.hbm, 73, rfl⟩
abbrev main_c_12 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_c_13 : Ref sig .tc := ⟨.hbm, 80, rfl⟩
abbrev main_v50 : Ref sig .tc := ⟨.hbm, 81, rfl⟩
abbrev main_v51 : Ref sig .tc := ⟨.hbm, 82, rfl⟩
abbrev main_c_14 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_c_15 : Ref sig .tc := ⟨.hbm, 90, rfl⟩
abbrev main_v58 : Ref sig .tc := ⟨.hbm, 91, rfl⟩
abbrev main_v59 : Ref sig .tc := ⟨.hbm, 92, rfl⟩
abbrev main_c_16 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_c_17 : Ref sig .tc := ⟨.hbm, 99, rfl⟩
abbrev main_v65 : Ref sig .tc := ⟨.hbm, 100, rfl⟩
abbrev main_v66 : Ref sig .tc := ⟨.hbm, 101, rfl⟩
abbrev main_c_18 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg2_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem2_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![125], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S8000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S200000 : S_.BroadcastsInDim S200000 (![] : Fin 0 → Fin S200000.rank)
  bcast_S200000_S200000x1_0 : S200000.BroadcastsInDim S200000x1 (![0] : Fin 1 → Fin S200000x1.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  reduces_S8000x128_S8000 : S8000x128.Reduces [1] S8000
  shapeCasts_S8000_S8000x1 : S8000.ShapeCasts S8000x1
  inb_S8000x1_S8000x1_0_0 : ∀ a, (![0, 0] : Fin 2 → Nat) a + S8000x1.size a ≤ S8000x1.size a
  h_S8000x1 : 0 < S8000x1.numel
  bcast_S_S1000000 : S_.BroadcastsInDim S1000000 (![] : Fin 0 → Fin S1000000.rank)
  bcast_S1000000_S1000000x1_0 : S1000000.BroadcastsInDim S1000000x1 (![0] : Fin 1 → Fin S1000000x1.rank)
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  gather_S50000x128_S200000x1_S200000x128_1_0_n_n_0_1_1128_wf : GatherDims.WF S50000x128 S200000x1 S200000x128 [1] [0] [] [0] [] 1 ![1, 128]
  gather_S50000x128_S1000000x1_S1000000x128_1_0_n_n_0_1_1128_wf : GatherDims.WF S50000x128 S1000000x1 S1000000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x128.size a ≤ S200000x128.size a
  hwx4_0 : ∀ i : grid4.Coords, EltTy.bits .f32 = 32 ∨ (Rect.block (s := S200000x128) S8000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x128.size a ≤ S200000x128.size a
  hwx4_1 : ∀ i : grid4.Coords, EltTy.bits .f32 = 32 ∨ (Rect.block (s := S200000x128) S8000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x1.size a ≤ S200000x1.size a
  hwx4_2 : ∀ i : grid4.Coords, EltTy.bits .f32 = 32 ∨ (Rect.block (s := S200000x1) S8000x1.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x128.size a ≤ S1000000x128.size a
  hwx5_0 : ∀ i : grid5.Coords, EltTy.bits .f32 = 32 ∨ (Rect.block (s := S1000000x128) S8000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8000x128.size a ≤ S1000000x128.size a
  hwx5_1 : ∀ i : grid5.Coords, EltTy.bits .f32 = 32 ∨ (Rect.block (s := S1000000x128) S8000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8000x1.size a ≤ S1000000x1.size a
  hwx5_2 : ∀ i : grid5.Coords, EltTy.bits .f32 = 32 ∨ (Rect.block (s := S1000000x1) S8000x1.size (cc5_transform_2 i) (hinb5_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v27) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v39) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v41) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v42) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v49) S8000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v56) S8000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v57) S8000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v64) S8000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v71) S8000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v72) S8000x1.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S800000 : Shape := ⟨1, ![800000]⟩
abbrev S200000 : Shape := ⟨1, ![200000]⟩
abbrev S1000000 : Shape := ⟨1, ![1000000]⟩
abbrev S128x128 : Shape := ⟨2, ![128, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S200000x1 : Shape := ⟨2, ![200000, 1]⟩
abbrev S200000x128 : Shape := ⟨2, ![200000, 128]⟩
abbrev S1000000x1 : Shape := ⟨2, ![1000000, 1]⟩
abbrev S1000000x128 : Shape := ⟨2, ![1000000, 128]⟩

abbrev nBuf : Space → Nat
  | .hbm => 155
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S200000, .i32⟩
  | 4 => ⟨S200000, .i32⟩
  | 5 => ⟨S1000000, .i32⟩
  | 6 => ⟨S1000000, .i32⟩
  | 7 => ⟨S128x128, .f32⟩
  | 8 => ⟨S128, .f32⟩
  | 9 => ⟨S128x128, .f32⟩
  | 10 => ⟨S128, .f32⟩
  | 11 => ⟨S_, .f32⟩
  | 12 => ⟨S800000, .f32⟩
  | 13 => ⟨S_, .f32⟩
  | 14 => ⟨S50000, .f32⟩
  | 15 => ⟨S800000x1, .i32⟩
  | 16 => ⟨S50000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S_, .f32⟩
  | 23 => ⟨S50000, .f32⟩
  | 24 => ⟨S50000, .f32⟩
  | 25 => ⟨S_, .f32⟩
  | 26 => ⟨S50000, .f32⟩
  | 27 => ⟨S50000, .f32⟩
  | 28 => ⟨S_, .f32⟩
  | 29 => ⟨S_, .f32⟩
  | 30 => ⟨S50000, .f32⟩
  | 31 => ⟨S50000, .f32⟩
  | 32 => ⟨S_, .f32⟩
  | 33 => ⟨S50000, .f32⟩
  | 34 => ⟨S50000, .f32⟩
  | 35 => ⟨S50000x1, .f32⟩
  | 36 => ⟨S50000x128, .f32⟩
  | 37 => ⟨S50000x128, .f32⟩
  | 38 => ⟨S50000x128, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x128, .f32⟩
  | 48 => ⟨S_, .f32⟩
  | 49 => ⟨S50000x128, .f32⟩
  | 50 => ⟨S800000x1, .i32⟩
  | 51 => ⟨S50000x128, .f32⟩
  | 52 => ⟨S50000x1, .f32⟩
  | 53 => ⟨S50000x128, .f32⟩
  | 54 => ⟨S50000x128, .f32⟩
  | 55 => ⟨S1x128, .f32⟩
  | 56 => ⟨S50000x128, .f32⟩
  | 57 => ⟨S50000x128, .f32⟩
  | 58 => ⟨S_, .f32⟩
  | 59 => ⟨S50000x128, .f32⟩
  | 60 => ⟨S50000x128, .f32⟩
  | 61 => ⟨S_, .f32⟩
  | 62 => ⟨S800000, .f32⟩
  | 63 => ⟨S_, .f32⟩
  | 64 => ⟨S50000, .f32⟩
  | 65 => ⟨S800000x1, .i32⟩
  | 66 => ⟨S50000, .f32⟩
  | 67 => ⟨S_, .f32⟩
  | 68 => ⟨S50000, .f32⟩
  | 69 => ⟨S800000x1, .i32⟩
  | 70 => ⟨S50000, .f32⟩
  | 71 => ⟨S_, .f32⟩
  | 72 => ⟨S_, .f32⟩
  | 73 => ⟨S50000, .f32⟩
  | 74 => ⟨S50000, .f32⟩
  | 75 => ⟨S_, .f32⟩
  | 76 => ⟨S50000, .f32⟩
  | 77 => ⟨S50000, .f32⟩
  | 78 => ⟨S_, .f32⟩
  | 79 => ⟨S_, .f32⟩
  | 80 => ⟨S50000, .f32⟩
  | 81 => ⟨S50000, .f32⟩
  | 82 => ⟨S_, .f32⟩
  | 83 => ⟨S50000, .f32⟩
  | 84 => ⟨S50000, .f32⟩
  | 85 => ⟨S50000x1, .f32⟩
  | 86 => ⟨S50000x128, .f32⟩
  | 87 => ⟨S50000x128, .f32⟩
  | 88 => ⟨S50000x128, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x128, .f32⟩
  | 98 => ⟨S_, .f32⟩
  | 99 => ⟨S50000x128, .f32⟩
  | 100 => ⟨S800000x1, .i32⟩
  | 101 => ⟨S50000x128, .f32⟩
  | 102 => ⟨S50000x1, .f32⟩
  | 103 => ⟨S50000x128, .f32⟩
  | 104 => ⟨S50000x128, .f32⟩
  | 105 => ⟨S1x128, .f32⟩
  | 106 => ⟨S50000x128, .f32⟩
  | 107 => ⟨S50000x128, .f32⟩
  | 108 => ⟨S_, .f32⟩
  | 109 => ⟨S50000x128, .f32⟩
  | 110 => ⟨S50000x128, .f32⟩
  | 111 => ⟨S_, .i32⟩
  | 112 => ⟨S200000, .i32⟩
  | 113 => ⟨S200000, .i1⟩
  | 114 => ⟨S_, .i32⟩
  | 115 => ⟨S200000, .i32⟩
  | 116 => ⟨S200000, .i32⟩
  | 117 => ⟨S200000, .i32⟩
  | 118 => ⟨S200000x1, .i32⟩
  | 119 => ⟨S200000x128, .f32⟩
  | 120 => ⟨S_, .i32⟩
  | 121 => ⟨S200000, .i32⟩
  | 122 => ⟨S200000, .i1⟩
  | 123 => ⟨S_, .i32⟩
  | 124 => ⟨S200000, .i32⟩
  | 125 => ⟨S200000, .i32⟩
  | 126 => ⟨S200000, .i32⟩
  | 127 => ⟨S200000x1, .i32⟩
  | _ => ⟨S50000x128, .f32⟩

abbrev hbmTy0_1 (i : Nat) : BufTy := match i % 128 with
  | 0 => ⟨S200000x128, .f32⟩
  | 1 => ⟨S200000x128, .f32⟩
  | 2 => ⟨S_, .f32⟩
  | 3 => ⟨S200000, .f32⟩
  | 4 => ⟨S200000x1, .f32⟩
  | 5 => ⟨S_, .i32⟩
  | 6 => ⟨S1000000, .i32⟩
  | 7 => ⟨S1000000, .i1⟩
  | 8 => ⟨S_, .i32⟩
  | 9 => ⟨S1000000, .i32⟩
  | 10 => ⟨S1000000, .i32⟩
  | 11 => ⟨S1000000, .i32⟩
  | 12 => ⟨S1000000x1, .i32⟩
  | 13 => ⟨S1000000x128, .f32⟩
  | 14 => ⟨S_, .i32⟩
  | 15 => ⟨S1000000, .i32⟩
  | 16 => ⟨S1000000, .i1⟩
  | 17 => ⟨S_, .i32⟩
  | 18 => ⟨S1000000, .i32⟩
  | 19 => ⟨S1000000, .i32⟩
  | 20 => ⟨S1000000, .i32⟩
  | 21 => ⟨S1000000x1, .i32⟩
  | 22 => ⟨S1000000x128, .f32⟩
  | 23 => ⟨S1000000x128, .f32⟩
  | 24 => ⟨S_, .f32⟩
  | 25 => ⟨S1000000, .f32⟩
  | 26 => ⟨S1000000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v7 : Ref sig .tc := ⟨.hbm, 24, rfl⟩
abbrev main_cst_3 : Ref sig .tc := ⟨.hbm, 25, rfl⟩
abbrev main_v8 : Ref sig .tc := ⟨.hbm, 26, rfl⟩
abbrev main_v9 : Ref sig .tc := ⟨.hbm, 27, rfl⟩
abbrev main_cst_4 : Ref sig .tc := ⟨.hbm, 28, rfl⟩
abbrev main_call1_v0 : Ref sig .tc := ⟨.hbm, 29, rfl⟩
abbrev main_call1_v1 : Ref sig .tc := ⟨.hbm, 30, rfl⟩
abbrev main_v10 : Ref sig .tc := ⟨.hbm, 31, rfl⟩
abbrev main_cst_5 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c : Ref sig .tc := ⟨.hbm, 39, rfl⟩
abbrev main_v17 : Ref sig .tc := ⟨.hbm, 40, rfl⟩
abbrev main_v18 : Ref sig .tc := ⟨.hbm, 41, rfl⟩
abbrev main_c_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_7 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_call2_cst : Ref sig .tc := ⟨.hbm, 58, rfl⟩
abbrev main_call2_v0 : Ref sig .tc := ⟨.hbm, 59, rfl⟩
abbrev main_v33 : Ref sig .tc := ⟨.hbm, 60, rfl⟩
abbrev main_cst_8 : Ref sig .tc := ⟨.hbm, 61, rfl⟩
abbrev main_v34 : Ref sig .tc := ⟨.hbm, 62, rfl⟩
abbrev main_cst_9 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_10 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_11 : Ref sig .tc := ⟨.hbm, 71, rfl⟩
abbrev main_call3_v0 : Ref sig .tc := ⟨.hbm, 72, rfl⟩
abbrev main_call3_v1 : Ref sig .tc := ⟨.hbm, 73, rfl⟩
abbrev main_v41 : Ref sig .tc := ⟨.hbm, 74, rfl⟩
abbrev main_cst_12 : Ref sig .tc := ⟨.hbm, 75, rfl⟩
abbrev main_v42 : Ref sig .tc := ⟨.hbm, 76, rfl⟩
abbrev main_v43 : Ref sig .tc := ⟨.hbm, 77, rfl⟩
abbrev main_cst_13 : Ref sig .tc := ⟨.hbm, 78, rfl⟩
abbrev main_call4_v0 : Ref sig .tc := ⟨.hbm, 79, rfl⟩
abbrev main_call4_v1 : Ref sig .tc := ⟨.hbm, 80, rfl⟩
abbrev main_v44 : Ref sig .tc := ⟨.hbm, 81, rfl⟩
abbrev main_cst_14 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_c_15 : Ref sig .tc := ⟨.hbm, 89, rfl⟩
abbrev main_v51 : Ref sig .tc := ⟨.hbm, 90, rfl⟩
abbrev main_v52 : Ref sig .tc := ⟨.hbm, 91, rfl⟩
abbrev main_c_16 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_cst_17 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_call5_cst : Ref sig .tc := ⟨.hbm, 108, rfl⟩
abbrev main_call5_v0 : Ref sig .tc := ⟨.hbm, 109, rfl⟩
abbrev main_v67 : Ref sig .tc := ⟨.hbm, 110, rfl⟩
abbrev main_c_18 : Ref sig .tc := ⟨.hbm, 111, rfl⟩
abbrev main_v68 : Ref sig .tc := ⟨.hbm, 112, rfl⟩
abbrev main_v69 : Ref sig .tc := ⟨.hbm, 113, rfl⟩
abbrev main_c_19 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_c_20 : Ref sig .tc := ⟨.hbm, 120, rfl⟩
abbrev main_v75 : Ref sig .tc := ⟨.hbm, 121, rfl⟩
abbrev main_v76 : Ref sig .tc := ⟨.hbm, 122, rfl⟩
abbrev main_c_21 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_22 : Ref sig .tc := ⟨.hbm, 130, rfl⟩
abbrev main_v83 : Ref sig .tc := ⟨.hbm, 131, rfl⟩
abbrev main_v84 : Ref sig .tc := ⟨.hbm, 132, rfl⟩
abbrev main_c_23 : Ref sig .tc := ⟨.hbm, 133, rfl⟩
abbrev main_v85 : Ref sig .tc := ⟨.hbm, 134, rfl⟩
abbrev main_v86 : Ref sig .tc := ⟨.hbm, 135, rfl⟩
abbrev main_c_24 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_c_25 : Ref sig .tc := ⟨.hbm, 142, rfl⟩
abbrev main_v92 : Ref sig .tc := ⟨.hbm, 143, rfl⟩
abbrev main_v93 : Ref sig .tc := ⟨.hbm, 144, rfl⟩
abbrev main_c_26 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_cst_27 : Ref sig .tc := ⟨.hbm, 152, rfl⟩
abbrev main_v100 : Ref sig .tc := ⟨.hbm, 153, rfl⟩
abbrev main_v101 : Ref sig .tc := ⟨.hbm, 154, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S200000 : S_.BroadcastsInDim S200000 (![] : Fin 0 → Fin S200000.rank)
  bcast_S200000_S200000x1_0 : S200000.BroadcastsInDim S200000x1 (![0] : Fin 1 → Fin S200000x1.rank)
  reducesTo_S200000x128_S200000_d1 : S200000x128.ReducesTo [1] S200000
  h_S_ : 0 < S_.numel
  bcast_S_S1000000 : S_.BroadcastsInDim S1000000 (![] : Fin 0 → Fin S1000000.rank)
  bcast_S1000000_S1000000x1_0 : S1000000.BroadcastsInDim S1000000x1 (![0] : Fin 1 → Fin S1000000x1.rank)
  reducesTo_S1000000x128_S1000000_d1 : S1000000x128.ReducesTo [1] S1000000
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  gather_S50000x128_S200000x1_S200000x128_1_0_n_n_0_1_1128_wf : GatherDims.WF S50000x128 S200000x1 S200000x128 [1] [0] [] [0] [] 1 ![1, 128]
  gather_S50000x128_S1000000x1_S1000000x128_1_0_n_n_0_1_1128_wf : GatherDims.WF S50000x128 S1000000x1 S1000000x128 [1] [0] [] [0] [] 1 ![1, 128]

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf

class Facts : Prop extends Facts₀ where

variable [Facts]
-- ==== Proof.RefOps.lean ====
/-
  The three jnp stretches of the reference that the kernel program runs as pallas_calls, each as one function of its
  operands at the exact (extended-real) instance, written with the reference's own operations:
  the projection (x scaled row by row by a per-node factor, times a weight matrix), the node update
  (aggregate scaled row by row, plus a bias row, clamped below at zero) and the per-edge dot product
  (row sums of the entrywise product of two row tables, kept as a column).
-/
import proofs.«178768_j4733053960250_1_alg».proof.ReferenceIdeal
import proofs.«178768_j4733053960250_1_alg».proof.Proof.Gen.ReferenceIdeal
import Idealize.ShloMosaic.PureOps.Ideal

noncomputable section

open Idealize.ShloMosaic Idealize.ShloMosaic.TcCoe

namespace Cert.Bridge

open Cert.ReferenceIdeal Cert.ReferenceIdeal.Facts₀

/-- (x[r, ·] · n[r]) @ w over 50000 rows: the reference's scaling by a broadcast column, then its dot_general. -/
abbrev projectRef (x : FVec Ideal S50000x128 .f32) (n : FVec Ideal S50000 .f32) (w : FVec Ideal S128x128 .f32) :
    FVec Ideal S50000x128 .f32 :=
  Host.dotGeneral (F := Ideal) dot_S50000x128_S128x128_S50000x128_1_0_0_1_n_n none
    (mulf x (broadcastInDim S50000x128 ![0, 1] bcast_S50000x1_S50000x128_0_1 (broadcastInDim S50000x1 ![0] bcast_S50000_S50000x1_0 n))) w

/-- max(agg[r, j] · n[r] + b[j], 0): the reference's scaling, bias row and relu. -/
abbrev finalizeRef (agg : FVec Ideal S50000x128 .f32) (n : FVec Ideal S50000 .f32) (b : FVec Ideal S128 .f32) :
    FVec Ideal S50000x128 .f32 :=
  maximumf (F := Ideal)
    (addf (mulf agg (broadcastInDim S50000x128 ![0, 1] bcast_S50000x1_S50000x128_0_1 (broadcastInDim S50000x1 ![0] bcast_S50000_S50000x1_0 n)))
      (broadcastInDim S50000x128 ![0, 1] bcast_S1x128_S50000x128_0_1 (broadcastInDim S1x128 ![1] bcast_S128_S1x128_1 b)))
    (broadcastInDim S50000x128 ![] bcast_S_S50000x128 (constant (F := Ideal) S_ .f32 0x00000000#32))

/-- Σ_k hu[e, k] · hv[e, k] as a column, over 200000 edges. -/
abbrev edgeDotRefPos (hu hv : FVec Ideal S200000x128 .f32) : FVec Ideal S200000x1 .f32 :=
  broadcastInDim S200000x1 ![0] bcast_S200000_S200000x1_0
    (Host.reduceAdd (F := Ideal) (mulf hu hv) (constant (F := Ideal) S_ .f32 0x00000000#32) reducesTo_S200000x128_S200000_d1 h_S_)

/-- Σ_k hu[e, k] · hv[e, k] as a column, over 1000000 edges. -/
abbrev edgeDotRefNeg (hu hv : FVec Ideal S1000000x128 .f32) : FVec Ideal S1000000x1 .f32 :=
  broadcastInDim S1000000x1 ![0] bcast_S1000000_S1000000x1_0
    (Host.reduceAdd (F := Ideal) (mulf hu hv) (constant (F := Ideal) S_ .f32 0x00000000#32) reducesTo_S1000000x128_S1000000_d1 h_S_)

end Cert.Bridge

end
-- ==== Proof.Kept.lean ====
/-
  Which buffers each stretch of host operations of the kernel program writes, and hence which it leaves alone:
  a buffer outside a stretch's write list holds after the stretch what it held before. With the pipeline's own
  statement that a pallas_call changes only its windows' arrays, this carries the arguments and the degree factors
  from where they are made to every place they are read.
-/
import proofs.«178768_j4733053960250_1_alg».proof.Proof.Gen.KernelIdeal.Frame
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem

variable {F : FTy → Type} [FloatOps F]

/-- Every operation of a literal stretch writes a buffer of the given list: one membership per operation, decided. -/
macro "host_writes" : tactic =>
  `(tactic| (simp only [List.Forall]
             repeat' apply And.intro
             all_goals
               (simp only [StableHlo.nullary_writes, StableHlo.unary_writes, StableHlo.binary_writes, StableHlo.ternary_writes,
                  StableHlo.quaternary_writes, StableHlo.reshape_writes, StableHlo.binaryIndexed_writes, StableHlo.unaryIndexed_writes,
                  StableHlo.nary_writes, Finset.singleton_subset_iff, List.mem_toFinset]
                exact List.mem_map_of_mem (by decide))))

/-! ## What each stretch writes -/

abbrev w0 : List (Ref sig .tc) := [main_cst, main_v0, main_cst_0, main_v1, main_v2, main_v3, main_cst_1, main_v4, main_v5, main_v6, main_cst_2]
abbrev w0_1 : List (Ref sig .tc) := [main_call0_v0, main_call0_v1, main_v7]
abbrev w0_2 : List (Ref sig .tc) := [main_cst_3, main_v8, main_v9, main_cst_4]
abbrev w0_3 : List (Ref sig .tc) := [main_call1_v0, main_call1_v1, main_v10]
abbrev w0_4 : List (Ref sig .tc) := [main_cst_5, main_v11, main_v12, main_v13]
abbrev w1 : List (Ref sig .tc) := [main_c, main_v15, main_v16, main_c_6, main_v17, main_v18, main_v19, main_v20, main_v21, main_cst_7, main_v22, main_v23, main_v24, main_v25, main_v26]
abbrev w2 : List (Ref sig .tc) := [main_v28]
abbrev w3 : List (Ref sig .tc) := [main_c_8, main_v30, main_v31, main_c_9, main_v32, main_v33, main_v34, main_v35, main_v36, main_cst_10, main_v37, main_v38, main_v39, main_v40, main_v41]
abbrev w4 : List (Ref sig .tc) := [main_c_11, main_v43, main_v44, main_c_12, main_v45, main_v46, main_v47, main_v48, main_v49, main_c_13, main_v50, main_v51, main_c_14, main_v52, main_v53, main_v54, main_v55, main_v56]
abbrev w5 : List (Ref sig .tc) := [main_c_15, main_v58, main_v59, main_c_16, main_v60, main_v61, main_v62, main_v63, main_v64, main_c_17, main_v65, main_v66, main_c_18, main_v67, main_v68, main_v69, main_v70, main_v71]

theorem w0_writes : (hostOps0 : List (HloOp τ sig (Elt F))).Forall fun op => op.writes ⊆ (w0.map (Proc.devRef (τ := τ) .tc)).toFinset := by host_writes
theorem w0_1_writes : (hostOps0_1 : List (HloOp τ sig (Elt F))).Forall fun op => op.writes ⊆ (w0_1.map (Proc.devRef (τ := τ) .tc)).toFinset := by host_writes
theorem w0_2_writes : (hostOps0_2 : List (HloOp τ sig (Elt F))).Forall fun op => op.writes ⊆ (w0_2.map (Proc.devRef (τ := τ) .tc)).toFinset := by host_writes
theorem w0_3_writes : (hostOps0_3 : List (HloOp τ sig (Elt F))).Forall fun op => op.writes ⊆ (w0_3.map (Proc.devRef (τ := τ) .tc)).toFinset := by host_writes
theorem w0_4_writes : (hostOps0_4 : List (HloOp τ sig (Elt F))).Forall fun op => op.writes ⊆ (w0_4.map (Proc.devRef (τ := τ) .tc)).toFinset := by host_writes
theorem w1_writes : (hostOps1 : List (HloOp τ sig (Elt F))).Forall fun op => op.writes ⊆ (w1.map (Proc.devRef (τ := τ) .tc)).toFinset := by host_writes
theorem w2_writes : (hostOps2 : List (HloOp τ sig (Elt F))).Forall fun op => op.writes ⊆ (w2.map (Proc.devRef (τ := τ) .tc)).toFinset := by host_writes
theorem w3_writes : (hostOps3 : List (HloOp τ sig (Elt F))).Forall fun op => op.writes ⊆ (w3.map (Proc.devRef (τ := τ) .tc)).toFinset := by host_writes
theorem w4_writes : (hostOps4 : List (HloOp τ sig (Elt F))).Forall fun op => op.writes ⊆ (w4.map (Proc.devRef (τ := τ) .tc)).toFinset := by host_writes
theorem w5_writes : (hostOps5 : List (HloOp τ sig (Elt F))).Forall fun op => op.writes ⊆ (w5.map (Proc.devRef (τ := τ) .tc)).toFinset := by host_writes

/-! ## A buffer a stretch does not write keeps its contents across it -/

variable (m : (ℓ : Loc nD τ sig) → Buf (Elt F) ℓ) (ρ : Dev nD → PrngReg) (c : Dev nD)

theorem W1_of (r : Ref sig .tc) (h : r ∉ w0) : W1 m ρ c (Proc.devRef .tc r) = W0 m ρ c (Proc.devRef .tc r) :=
  StableHlo.after_of_writes_sub hostOps0 _ w0_writes h
theorem W2_of (r : Ref sig .tc) (h : r ∉ w0_1) : W2 m ρ c (Proc.devRef .tc r) = W1 m ρ c (Proc.devRef .tc r) :=
  StableHlo.after_of_writes_sub hostOps0_1 _ w0_1_writes h
theorem W3_of (r : Ref sig .tc) (h : r ∉ w0_2) : W3 m ρ c (Proc.devRef .tc r) = W2 m ρ c (Proc.devRef .tc r) :=
  StableHlo.after_of_writes_sub hostOps0_2 _ w0_2_writes h
theorem W4_of (r : Ref sig .tc) (h : r ∉ w0_3) : W4 m ρ c (Proc.devRef .tc r) = W3 m ρ c (Proc.devRef .tc r) :=
  StableHlo.after_of_writes_sub hostOps0_3 _ w0_3_writes h
theorem W5_of (r : Ref sig .tc) (h : r ∉ w0_4) : W5 m ρ c (Proc.devRef .tc r) = W4 m ρ c (Proc.devRef .tc r) :=
  StableHlo.after_of_writes_sub hostOps0_4 _ w0_4_writes h
theorem W7_of (r : Ref sig .tc) (h : r ∉ w1) : W7 m ρ c (Proc.devRef .tc r) = W6 m ρ c (Proc.devRef .tc r) :=
  StableHlo.after_of_writes_sub hostOps1 _ w1_writes h
theorem W9_of (r : Ref sig .tc) (h : r ∉ w2) : W9 m ρ c (Proc.devRef .tc r) = W8 m ρ c (Proc.devRef .tc r) :=
  StableHlo.after_of_writes_sub hostOps2 _ w2_writes h
theorem W11_of (r : Ref sig .tc) (h : r ∉ w3) : W11 m ρ c (Proc.devRef .tc r) = W10 m ρ c (Proc.devRef .tc r) :=
  StableHlo.after_of_writes_sub hostOps3 _ w3_writes h
theorem W13_of (r : Ref sig .tc) (h : r ∉ w4) : W13 m ρ c (Proc.devRef .tc r) = W12 m ρ c (Proc.devRef .tc r) :=
  StableHlo.after_of_writes_sub hostOps4 _ w4_writes h
theorem W15_of (r : Ref sig .tc) (h : r ∉ w5) : W15 m ρ c (Proc.devRef .tc r) = W14 m ρ c (Proc.devRef .tc r) :=
  StableHlo.after_of_writes_sub hostOps5 _ w5_writes h

/-- A buffer no stretch before the first pallas_call writes holds its launch contents when that call is entered. -/
theorem W5_launch (r : Ref sig .tc) (h0 : r ∉ w0) (h1 : r ∉ w0_1) (h2 : r ∉ w0_2) (h3 : r ∉ w0_3) (h4 : r ∉ w0_4) :
    W5 m ρ c (Proc.devRef .tc r) = m ((c : Thread nD τ).loc r) :=
  (W5_of m ρ c r h4).trans <| (W4_of m ρ c r h3).trans <| (W3_of m ρ c r h2).trans <| (W2_of m ρ c r h1).trans <| (W1_of m ρ c r h0).trans rfl

end Cert.KernelIdeal.Chain

end
-- ==== Proof.Chain.lean ====
/-
  The kernel program's buffers, boundary by boundary, as the reference's own stages of the launch arguments.
  Between two pallas_calls the kernel program runs the very host operations the reference runs (the degree counts,
  their clamp and inverse square root, the row gathers and scatter-adds, the index wrap for negative node ids), so
  each stretch maps "these buffers hold the reference's stages" to the same statement one stage on; each
  pallas_call is one of three functions of its operand arrays (projection, node update, per-edge dot product),
  which is the reference's matching stretch. The kernel program counts the degrees once where the reference counts
  them once per layer: the second count is the same term.
-/
import proofs.«178768_j4733053960250_1_alg».proof.Proof.Gen.KernelIdeal.Frame
import proofs.«178768_j4733053960250_1_alg».proof.Proof.Gen.ReferenceIdeal.Read
import proofs.«178768_j4733053960250_1_alg».proof.Proof.RefOps
import proofs.«178768_j4733053960250_1_alg».proof.Proof.Kept
import Idealize.ShloMosaic.Lib.StableHlo.Run

set_option maxRecDepth 16384
set_option maxHeartbeats 400000

noncomputable section

namespace Cert.KernelIdeal.Chain

open Cert.KernelIdeal Cert.KernelIdeal.Gen
open Idealize.ShloMosaic Idealize.ShloMosaic.TcCoe Idealize.SL.Sem Idealize.ShloMosaic.StableHlo
open Cert.ReferenceIdeal.Read

/-- Integer and float arrays of the shapes the stages take. -/
abbrev IArr (S : Shape) := (⟨S, .i32⟩ : BufTy).Contents (Elt Ideal)
abbrev FArr (S : Shape) := (⟨S, .f32⟩ : BufTy).Contents (Elt Ideal)

/-! ## The host stretches before the first pallas_call, from any contents `Wb` -/

section Stretches
variable (Wb : Valuation τ sig (Elt Ideal))

/-- Transport to a buffer's type and back is the identity. -/
theorem ofBuf_toBuf {T : BufTy} (x : TRef sig T) (v : T.Contents (Elt Ideal)) : x.ofBuf (Val := Elt Ideal) (x.toBuf (Val := Elt Ideal) v) = v := by
  show cast _ (cast _ v) = v
  rw [cast_cast, cast_eq]

/-- The out-degree count: ones scattered-added at the source ids. -/
theorem st0_v3 (x1 : IArr S800000) (h1 : Wb (Proc.devRef .tc main_arg1) = x1) :
    StableHlo.after (hostOps0 (F := Ideal)) Wb (Proc.devRef .tc main_v3) = val_main_v3 (F := Ideal) x1 := by
  after_results
  rw [h1]
  unfold val_main_v3 val_main_v2 val_main_v1 val_main_cst_0 val_main_v0 val_main_cst
  unfold scatter_S50000_S800000x1_S800000_n_0_0_1 Cert.ReferenceIdeal.scatter_S50000_S800000x1_S800000_n_0_0_1
  with_reducible rfl

/-- The in-degree count: ones scattered-added at the destination ids. -/
theorem st0_v6 (x2 : IArr S800000) (h2 : Wb (Proc.devRef .tc main_arg2) = x2) :
    StableHlo.after (hostOps0 (F := Ideal)) Wb (Proc.devRef .tc main_v6) = val_main_v6 (F := Ideal) x2 := by
  after_results
  rw [h2]
  unfold val_main_v6 val_main_v5 val_main_v4 val_main_cst_1 val_main_v0 val_main_cst
  unfold scatter_S50000_S800000x1_S800000_n_0_0_1 Cert.ReferenceIdeal.scatter_S50000_S800000x1_S800000_n_0_0_1
  with_reducible rfl

theorem st0_cst2 : StableHlo.after (hostOps0 (F := Ideal)) Wb (Proc.devRef .tc main_cst_2) = val_main_cst_2 (F := Ideal) := by
  after_results
  unfold val_main_cst_2
  with_reducible rfl

/-- The clamp of the out-degree below at one. -/
theorem st01_v7 (x1 : IArr S800000) (hc : Wb (Proc.devRef .tc main_cst_2) = val_main_cst_2 (F := Ideal))
    (h3 : Wb (Proc.devRef .tc main_v3) = val_main_v3 (F := Ideal) x1) :
    StableHlo.after (hostOps0_1 (F := Ideal)) Wb (Proc.devRef .tc main_v7) = val_main_v7 (F := Ideal) x1 := by
  have hc' : (TRef.of (sig := sig) (T := ⟨S_, .f32⟩) main_cst_2).ofBuf (Val := Elt Ideal) (Wb (Proc.devRef .tc main_cst_2)) = val_main_cst_2 (F := Ideal) := hc
  have h3' : (TRef.of (sig := sig) (T := ⟨S50000, .f32⟩) main_v3).ofBuf (Val := Elt Ideal) (Wb (Proc.devRef .tc main_v3)) = val_main_v3 (F := Ideal) x1 := h3
  have key : (TRef.of (sig := sig) (T := ⟨S50000, .f32⟩) main_v7).ofBuf (Val := Elt Ideal)
      (StableHlo.after (hostOps0_1 (F := Ideal)) Wb (Proc.devRef .tc main_v7)) = val_main_v7 (F := Ideal) x1 := by
    after_results
    rw [ofBuf_toBuf, ofBuf_toBuf, ofBuf_toBuf, hc', h3']
    unfold val_main_v7 val_main_call0_v1 val_main_call0_v0
    with_reducible rfl
  exact key

/-- The out-degree factor: the clamped count to the power −1/2. -/
theorem st02_v9 (x1 : IArr S800000) (h7 : Wb (Proc.devRef .tc main_v7) = val_main_v7 (F := Ideal) x1) :
    StableHlo.after (hostOps0_2 (F := Ideal)) Wb (Proc.devRef .tc main_v9) = val_main_v9 (F := Ideal) x1 := by
  after_results
  rw [h7]
  unfold val_main_v9 val_main_v8 val_main_cst_3
  with_reducible rfl

theorem st02_cst4 : StableHlo.after (hostOps0_2 (F := Ideal)) Wb (Proc.devRef .tc main_cst_4) = val_main_cst_4 (F := Ideal) := by
  after_results
  unfold val_main_cst_4
  with_reducible rfl

/-- The clamp of the in-degree below at one. -/
theorem st03_v10 (x2 : IArr S800000) (hc : Wb (Proc.devRef .tc main_cst_4) = val_main_cst_4 (F := Ideal))
    (h6 : Wb (Proc.devRef .tc main_v6) = val_main_v6 (F := Ideal) x2) :
    StableHlo.after (hostOps0_3 (F := Ideal)) Wb (Proc.devRef .tc main_v10) = val_main_v10 (F := Ideal) x2 := by
  have hc' : (TRef.of (sig := sig) (T := ⟨S_, .f32⟩) main_cst_4).ofBuf (Val := Elt Ideal) (Wb (Proc.devRef .tc main_cst_4)) = val_main_cst_4 (F := Ideal) := hc
  have h6' : (TRef.of (sig := sig) (T := ⟨S50000, .f32⟩) main_v6).ofBuf (Val := Elt Ideal) (Wb (Proc.devRef .tc main_v6)) = val_main_v6 (F := Ideal) x2 := h6
  have key : (TRef.of (sig := sig) (T := ⟨S50000, .f32⟩) main_v10).ofBuf (Val := Elt Ideal)
      (StableHlo.after (hostOps0_3 (F := Ideal)) Wb (Proc.devRef .tc main_v10)) = val_main_v10 (F := Ideal) x2 := by
    after_results
    rw [ofBuf_toBuf, ofBuf_toBuf, ofBuf_toBuf, hc', h6']
    unfold val_main_v10 val_main_call1_v1 val_main_call1_v0
    with_reducible rfl
  exact key

/-- The in-degree factor. -/
theorem st04_v12 (x2 : IArr S800000) (h10 : Wb (Proc.devRef .tc main_v10) = val_main_v10 (F := Ideal) x2) :
    StableHlo.after (hostOps0_4 (F := Ideal)) Wb (Proc.devRef .tc main_v12) = val_main_v12 (F := Ideal) x2 := by
  after_results
  rw [h10]
  unfold val_main_v12 val_main_v11 val_main_cst_5
  with_reducible rfl

/-- The out-degree factor laid out as a column. -/
theorem st04_v13 (n : FArr S50000) (h9 : Wb (Proc.devRef .tc main_v9) = n) :
    StableHlo.after (hostOps0_4 (F := Ideal)) Wb (Proc.devRef .tc main_v13) = shapeCast S50000x1 n Facts₀.shapeCasts_S50000_S50000x1 := by
  after_results
  rw [h9]
  rfl

/-! ## The host stretches between the pallas_calls -/

/-- Negative node ids wrapped by the node count, rows gathered at the sources, scatter-added at the destinations:
    the first layer's aggregate. -/
theorem st1_v24 (x0 : FArr S50000x128) (x1 x2 : IArr S800000) (x7 : FArr S128x128)
    (h14 : Wb (Proc.devRef .tc main_v14) = val_main_v16 (F := Ideal) x0 x1 x7)
    (h1 : Wb (Proc.devRef .tc main_arg1) = x1) (h2 : Wb (Proc.devRef .tc main_arg2) = x2) :
    StableHlo.after (hostOps1 (F := Ideal)) Wb (Proc.devRef .tc main_v24) = val_main_v26 (F := Ideal) x0 x1 x2 x7 := by
  after_results
  rw [h14, h1, h2]
  unfold val_main_v26 val_main_v25 val_main_v24 val_main_cst_7 val_main_v23 val_main_v22 val_main_v21 val_main_v20 val_main_v19 val_main_c_6 val_main_v18 val_main_v17 val_main_c
  unfold gather_S50000x128_S800000x1_S800000x128_1_0_n_n_0_1_1128 Cert.ReferenceIdeal.gather_S50000x128_S800000x1_S800000x128_1_0_n_n_0_1_1128
  unfold scatter_S50000x128_S800000x1_S800000x128_1_0_0_1 Cert.ReferenceIdeal.scatter_S50000x128_S800000x1_S800000x128_1_0_0_1
  with_reducible rfl

/-- The in-degree factor laid out as a column. -/
theorem st1_v25 (n : FArr S50000) (h12 : Wb (Proc.devRef .tc main_v12) = n) :
    StableHlo.after (hostOps1 (F := Ideal)) Wb (Proc.devRef .tc main_v25) = shapeCast S50000x1 n Facts₀.shapeCasts_S50000_S50000x1 := by
  after_results
  rw [h12]
  rfl

/-- The first bias laid out as a row. -/
theorem st1_v26 (b : FArr S128) (h8 : Wb (Proc.devRef .tc main_arg8) = b) :
    StableHlo.after (hostOps1 (F := Ideal)) Wb (Proc.devRef .tc main_v26) = shapeCast S1x128 b Facts₀.shapeCasts_S128_S1x128 := by
  after_results
  rw [h8]
  rfl

/-- The out-degree factor laid out as a column again, for the second projection. -/
theorem st2_v28 (n : FArr S50000) (h9 : Wb (Proc.devRef .tc main_v9) = n) :
    StableHlo.after (hostOps2 (F := Ideal)) Wb (Proc.devRef .tc main_v28) = shapeCast S50000x1 n Facts₀.shapeCasts_S50000_S50000x1 := by
  after_results
  rw [h9]
  rfl

/-- The second layer's aggregate. -/
theorem st3_v39 (x0 : FArr S50000x128) (x1 x2 : IArr S800000) (x7 : FArr S128x128) (x8 : FArr S128) (x9 : FArr S128x128)
    (h29 : Wb (Proc.devRef .tc main_v29) = val_main_v50 (F := Ideal) x0 x1 x2 x7 x8 x9)
    (h1 : Wb (Proc.devRef .tc main_arg1) = x1) (h2 : Wb (Proc.devRef .tc main_arg2) = x2) :
    StableHlo.after (hostOps3 (F := Ideal)) Wb (Proc.devRef .tc main_v39) = val_main_v60 (F := Ideal) x0 x1 x2 x7 x8 x9 := by
  after_results
  rw [h29, h1, h2]
  unfold val_main_v60 val_main_v59 val_main_v58 val_main_cst_17 val_main_v57 val_main_v56 val_main_v55 val_main_v54 val_main_v53 val_main_c_16 val_main_v52 val_main_v51 val_main_c_15
  unfold gather_S50000x128_S800000x1_S800000x128_1_0_n_n_0_1_1128 Cert.ReferenceIdeal.gather_S50000x128_S800000x1_S800000x128_1_0_n_n_0_1_1128
  unfold scatter_S50000x128_S800000x1_S800000x128_1_0_0_1 Cert.ReferenceIdeal.scatter_S50000x128_S800000x1_S800000x128_1_0_0_1
  with_reducible rfl

theorem st3_v40 (n : FArr S50000) (h12 : Wb (Proc.devRef .tc main_v12) = n) :
    StableHlo.after (hostOps3 (F := Ideal)) Wb (Proc.devRef .tc main_v40) = shapeCast S50000x1 n Facts₀.shapeCasts_S50000_S50000x1 := by
  after_results
  rw [h12]
  rfl

/-- The second bias laid out as a row. -/
theorem st3_v41 (b : FArr S128) (h10 : Wb (Proc.devRef .tc main_arg10) = b) :
    StableHlo.after (hostOps3 (F := Ideal)) Wb (Proc.devRef .tc main_v41) = shapeCast S1x128 b Facts₀.shapeCasts_S128_S1x128 := by
  after_results
  rw [h10]
  rfl

/-- The node features gathered at the positive edges' sources. -/
theorem st4_v49 (H : FArr S50000x128) (x3 : IArr S200000)
    (h42 : Wb (Proc.devRef .tc main_v42) = H) (h3 : Wb (Proc.devRef .tc main_arg3) = x3) :
    StableHlo.after (hostOps4 (F := Ideal)) Wb (Proc.devRef .tc main_v49)
      = Host.gather Cert.ReferenceIdeal.gather_S50000x128_S200000x1_S200000x128_1_0_n_n_0_1_1128 H (val_main_v73 (F := Ideal) x3) := by
  after_results
  rw [h42, h3]
  unfold val_main_v73 val_main_v72 val_main_v71 val_main_v70 val_main_c_19 val_main_v69 val_main_v68 val_main_c_18
  unfold gather_S50000x128_S200000x1_S200000x128_1_0_n_n_0_1_1128 Cert.ReferenceIdeal.gather_S50000x128_S200000x1_S200000x128_1_0_n_n_0_1_1128
  with_reducible rfl

/-- The node features gathered at the positive edges' destinations. -/
theorem st4_v56 (H : FArr S50000x128) (x4 : IArr S200000)
    (h42 : Wb (Proc.devRef .tc main_v42) = H) (h4 : Wb (Proc.devRef .tc main_arg4) = x4) :
    StableHlo.after (hostOps4 (F := Ideal)) Wb (Proc.devRef .tc main_v56)
      = Host.gather Cert.ReferenceIdeal.gather_S50000x128_S200000x1_S200000x128_1_0_n_n_0_1_1128 H (val_main_v80 (F := Ideal) x4) := by
  after_results
  rw [h42, h4]
  unfold val_main_v80 val_main_v79 val_main_v78 val_main_v77 val_main_c_21 val_main_v76 val_main_v75 val_main_c_20
  unfold gather_S50000x128_S200000x1_S200000x128_1_0_n_n_0_1_1128 Cert.ReferenceIdeal.gather_S50000x128_S200000x1_S200000x128_1_0_n_n_0_1_1128
  with_reducible rfl

/-- The node features gathered at the negative edges' sources. -/
theorem st5_v64 (H : FArr S50000x128) (x5 : IArr S1000000)
    (h42 : Wb (Proc.devRef .tc main_v42) = H) (h5 : Wb (Proc.devRef .tc main_arg5) = x5) :
    StableHlo.after (hostOps5 (F := Ideal)) Wb (Proc.devRef .tc main_v64)
      = Host.gather Cert.ReferenceIdeal.gather_S50000x128_S1000000x1_S1000000x128_1_0_n_n_0_1_1128 H (val_main_v90 (F := Ideal) x5) := by
  after_results
  rw [h42, h5]
  unfold val_main_v90 val_main_v89 val_main_v88 val_main_v87 val_main_c_24 val_main_v86 val_main_v85 val_main_c_23
  unfold gather_S50000x128_S1000000x1_S1000000x128_1_0_n_n_0_1_1128 Cert.ReferenceIdeal.gather_S50000x128_S1000000x1_S1000000x128_1_0_n_n_0_1_1128
  with_reducible rfl

/-- The node features gathered at the negative edges' destinations. -/
theorem st5_v71 (H : FArr S50000x128) (x6 : IArr S1000000)
    (h42 : Wb (Proc.devRef .tc main_v42) = H) (h6 : Wb (Proc.devRef .tc main_arg6) = x6) :
    StableHlo.after (hostOps5 (F := Ideal)) Wb (Proc.devRef .tc main_v71)
      = Host.gather Cert.ReferenceIdeal.gather_S50000x128_S1000000x1_S1000000x128_1_0_n_n_0_1_1128 H (val_main_v97 (F := Ideal) x6) := by
  after_results
  rw [h42, h6]
  unfold val_main_v97 val_main_v96 val_main_v95 val_main_v94 val_main_c_26 val_main_v93 val_main_v92 val_main_c_25
  unfold gather_S50000x128_S1000000x1_S1000000x128_1_0_n_n_0_1_1128 Cert.ReferenceIdeal.gather_S50000x128_S1000000x1_S1000000x128_1_0_n_n_0_1_1128
  with_reducible rfl

end Stretches

/-! ## Each pallas_call's function of the stages before it is the reference's next stage -/

section Stages
variable (x0 : FArr S50000x128) (x1 x2 : IArr S800000) (x3 x4 : IArr S200000) (x5 x6 : IArr S1000000)
  (x7 : FArr S128x128) (x8 : FArr S128) (x9 : FArr S128x128) (x10 : FArr S128)

/-- The reference counts the out-degrees again for the second layer: the same term. -/
theorem norm_src_again : val_main_v43 (F := Ideal) x1 = val_main_v9 (F := Ideal) x1 := by
  unfold val_main_v43 val_main_v42 val_main_cst_12 val_main_v41 val_main_call3_v1 val_main_call3_v0 val_main_cst_11 val_main_v37 val_main_v36 val_main_v35 val_main_cst_9 val_main_v34 val_main_cst_8
  unfold val_main_v9 val_main_v8 val_main_cst_3 val_main_v7 val_main_call0_v1 val_main_call0_v0 val_main_cst_2 val_main_v3 val_main_v2 val_main_v1 val_main_cst_0 val_main_v0 val_main_cst
  with_reducible rfl

/-- And the in-degrees. -/
theorem norm_dst_again : val_main_v46 (F := Ideal) x2 = val_main_v12 (F := Ideal) x2 := by
  unfold val_main_v46 val_main_v45 val_main_cst_14 val_main_v44 val_main_call4_v1 val_main_call4_v0 val_main_cst_13 val_main_v40 val_main_v39 val_main_v38 val_main_cst_10 val_main_v34 val_main_cst_8
  unfold val_main_v12 val_main_v11 val_main_cst_5 val_main_v10 val_main_call1_v1 val_main_call1_v0 val_main_cst_4 val_main_v6 val_main_v5 val_main_v4 val_main_cst_1 val_main_v0 val_main_cst
  with_reducible rfl

/-- The first projection. -/
theorem proj_stage1 : Cert.Bridge.projectRef x0 (val_main_v9 (F := Ideal) x1) x7 = val_main_v16 (F := Ideal) x0 x1 x7 := by
  unfold val_main_v16 val_main_v15 val_main_v14 val_main_v13
  with_reducible rfl

/-- The first node update. -/
theorem fin_stage1 : Cert.Bridge.finalizeRef (val_main_v26 (F := Ideal) x0 x1 x2 x7) (val_main_v12 (F := Ideal) x2) x8
    = val_main_v33 (F := Ideal) x0 x1 x2 x7 x8 := by
  unfold val_main_v33 val_main_call2_v0 val_main_call2_cst val_main_v32 val_main_v31 val_main_v30 val_main_v29 val_main_v28 val_main_v27
  with_reducible rfl

/-- The second projection: the reference scales by its second out-degree count, which is the first. -/
theorem proj_stage2 : Cert.Bridge.projectRef (val_main_v33 (F := Ideal) x0 x1 x2 x7 x8) (val_main_v9 (F := Ideal) x1) x9
    = val_main_v50 (F := Ideal) x0 x1 x2 x7 x8 x9 := by
  unfold val_main_v50 val_main_v49 val_main_v48 val_main_v47
  rw [norm_src_again]

/-- The second node update. -/
theorem fin_stage2 : Cert.Bridge.finalizeRef (val_main_v60 (F := Ideal) x0 x1 x2 x7 x8 x9) (val_main_v12 (F := Ideal) x2) x10
    = val_main_v67 (F := Ideal) x0 x1 x2 x7 x8 x9 x10 := by
  unfold val_main_v67 val_main_call5_v0 val_main_call5_cst val_main_v66 val_main_v65 val_main_v64 val_main_v63 val_main_v62 val_main_v61
  rw [norm_dst_again]

/-- The positive edges' scores. -/
theorem dot_stage_pos :
    Cert.Bridge.edgeDotRefPos
      (Host.gather Cert.ReferenceIdeal.gather_S50000x128_S200000x1_S200000x128_1_0_n_n_0_1_1128 (val_main_v67 (F := Ideal) x0 x1 x2 x7 x8 x9 x10) (val_main_v73 (F := Ideal) x3))
      (Host.gather Cert.ReferenceIdeal.gather_S50000x128_S200000x1_S200000x128_1_0_n_n_0_1_1128 (val_main_v67 (F := Ideal) x0 x1 x2 x7 x8 x9 x10) (val_main_v80 (F := Ideal) x4))
    = val_main_v84 (F := Ideal) x0 x1 x2 x3 x4 x7 x8 x9 x10 := by
  unfold val_main_v84 val_main_v83 val_main_cst_22 val_main_v82 val_main_v81 val_main_v74
  with_reducible rfl

/-- The negative edges' scores. -/
theorem dot_stage_neg :
    Cert.Bridge.edgeDotRefNeg
      (Host.gather Cert.ReferenceIdeal.gather_S50000x128_S1000000x1_S1000000x128_1_0_n_n_0_1_1128 (val_main_v67 (F := Ideal) x0 x1 x2 x7 x8 x9 x10) (val_main_v90 (F := Ideal) x5))
      (Host.gather Cert.ReferenceIdeal.gather_S50000x128_S1000000x1_S1000000x128_1_0_n_n_0_1_1128 (val_main_v67 (F := Ideal) x0 x1 x2 x7 x8 x9 x10) (val_main_v97 (F := Ideal) x6))
    = val_main_v101 (F := Ideal) x0 x1 x2 x5 x6 x7 x8 x9 x10 := by
  unfold val_main_v101 val_main_v100 val_main_cst_27 val_main_v99 val_main_v98 val_main_v91
  with_reducible rfl

end Stages

end Cert.KernelIdeal.Chain

end
-- ==== Proof.Project.lean ====
import proofs.«178768_j4733053960250_1_alg».proof.ReferenceIdeal
import proofs.«178768_j4733053960250_1_alg».proof.Proof.Gen.ReferenceIdeal
import proofs.«178768_j4733053960250_1_alg».proof.Proof.Gen.KernelIdeal.Frame
import proofs.«178768_j4733053960250_1_alg».proof.Proof.RefOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem

namespace Cert.Bridge

open Idealize.ShloMosaic.ValueIdx (ix1 ix2 eq_ix2)

namespace Project

/-! ## The two products read at an index

The reference multiplies a [50000,128] table by a [128,128] matrix on the host; the kernel multiplies a
[5000,128] block by the same matrix into a zero accumulator. Either, read at (row, column), is the sum over
the contracted axis k of left (row, k) times right (k, column). -/

theorem refDot_lhs_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
  rfl
theorem refDot_lhs_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
theorem refDot_rhs_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem refDot_rhs_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
  rfl

/-- The host product at (r, j): Σ_k y (r, k) · w (k, j), for any left operand y. -/
theorem refDot_apply (y : FVec Ideal Cert.ReferenceIdeal.S50000x128 .f32) (w : FVec Ideal Cert.ReferenceIdeal.S128x128 .f32)
    (r : Fin 50000) (j : Fin 128) :
    Host.dotGeneral (F := Ideal) Cert.ReferenceIdeal.dot_S50000x128_S128x128_S50000x128_1_0_0_1_n_n none y w (ix2 r j)
      = ∑ k : Fin 128, y (ix2 r k) * w (ix2 k j) := by
  simp only [Host.dotGeneral]
  rw [Ideal.dotGeneral_apply, ← Equiv.sum_comp (ValueIdx.contrEquiv1 Cert.ReferenceIdeal.dot_S50000x128_S128x128_S50000x128_1_0_0_1_n_n 128 rfl rfl).symm]
  refine Finset.sum_congr rfl fun k _ => ?_
  have hk := ValueIdx.contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 r j) ((ValueIdx.contrEquiv1 Cert.ReferenceIdeal.dot_S50000x128_S128x128_S50000x128_1_0_0_1_n_n 128 rfl rfl).symm k) = ix2 r k := funext fun a => Fin.ext (by
    match a with
    | ⟨0, _⟩ => exact refDot_lhs_0 _ _
    | ⟨1, _⟩ => exact (refDot_lhs_1 _ _).trans hk)
  have er : Cert.ReferenceIdeal.dot_S50000x128_S128x128_S50000x128_1_0_0_1_n_n.rhsIdx (ix2 r j) ((ValueIdx.contrEquiv1 Cert.ReferenceIdeal.dot_S50000x128_S128x128_S50000x128_1_0_0_1_n_n 128 rfl rfl).symm k) = ix2 k j := funext fun a => Fin.ext (by
    match a with
    | ⟨0, _⟩ => exact (refDot_rhs_0 _ _).trans hk
    | ⟨1, _⟩ => exact refDot_rhs_1 _ _)
  rw [el, er]

theorem kerDot_lhs_0 (i : Cert.KernelIdeal.S5000x128.Idx) (q : Cert.KernelIdeal.dot_S5000x128_S128x128_S5000x128_1_0_0_1_n_n.contr.Idx) :
    (Cert.KernelIdeal.dot_S5000x128_S128x128_S5000x128_1_0_0_1_n_n.lhsIdx i q 0).val = (i 0).val := by
  unfold DotDims.lhsIdx
  rw [dif_neg (show ¬(0 : Fin Cert.KernelIdeal.S5000x128.rank) ∈ Cert.KernelIdeal.dot_S5000x128_S128x128_S5000x128_1_0_0_1_n_n.lhsBatch by decide), dif_pos (show (0 : Fin Cert.KernelIdeal.S5000x128.rank) ∈ Cert.KernelIdeal.dot_S5000x128_S128x128_S5000x128_1_0_0_1_n_n.lhsNonContracting by decide)]
  rfl
theorem kerDot_lhs_1 (i : Cert.KernelIdeal.S5000x128.Idx) (q : Cert.KernelIdeal.dot_S5000x128_S128x128_S5000x128_1_0_0_1_n_n.contr.Idx) :
    (Cert.KernelIdeal.dot_S5000x128_S128x128_S5000x128_1_0_0_1_n_n.lhsIdx i q 1).val = (q ⟨0, by decide⟩).val :=
  Cert.KernelIdeal.dot_S5000x128_S128x128_S5000x128_1_0_0_1_n_n.lhsIdx_val_of_single rfl i q
theorem kerDot_rhs_0 (i : Cert.KernelIdeal.S5000x128.Idx) (q : Cert.KernelIdeal.dot_S5000x128_S128x128_S5000x128_1_0_0_1_n_n.contr.Idx) :
    (Cert.KernelIdeal.dot_S5000x128_S128x128_S5000x128_1_0_0_1_n_n.rhsIdx i q 0).val = (q ⟨0, by decide⟩).val :=
  Cert.KernelIdeal.dot_S5000x128_S128x128_S5000x128_1_0_0_1_n_n.rhsIdx_val_of_single rfl i q
theorem kerDot_rhs_1 (i : Cert.KernelIdeal.S5000x128.Idx) (q : Cert.KernelIdeal.dot_S5000x128_S128x128_S5000x128_1_0_0_1_n_n.contr.Idx) :
    (Cert.KernelIdeal.dot_S5000x128_S128x128_S5000x128_1_0_0_1_n_n.rhsIdx i q 1).val = (i 1).val := by
  unfold DotDims.rhsIdx
  rw [dif_neg (show ¬(1 : Fin Cert.KernelIdeal.S128x128.rank) ∈ Cert.KernelIdeal.dot_S5000x128_S128x128_S5000x128_1_0_0_1_n_n.rhsBatch by decide), dif_pos (show (1 : Fin Cert.KernelIdeal.S128x128.rank) ∈ Cert.KernelIdeal.dot_S5000x128_S128x128_S5000x128_1_0_0_1_n_n.rhsNonContracting by decide)]
  rfl

/-- The block product into a zero accumulator at (p, q): Σ_k y (p, k) · w (k, q), for any operands of any formats. -/
theorem kerDot_apply {φ₁ φ₂ : FTy} (y : FVec Ideal Cert.KernelIdeal.S5000x128 φ₁) (w : FVec Ideal Cert.KernelIdeal.S128x128 φ₂)
    (p : Fin 5000) (q : Fin 128) :
    matmul (F := Ideal) Cert.KernelIdeal.dot_S5000x128_S128x128_S5000x128_1_0_0_1_n_n none y w (constant (F := Ideal) Cert.KernelIdeal.S5000x128 .f32 0x00000000#32) (ix2 p q)
      = ∑ k : Fin 128, y (ix2 p k) * w (ix2 k q) := by
  simp only [matmul]
  rw [Ideal.matmul_constant_zero_apply, ← Equiv.sum_comp (ValueIdx.contrEquiv1 Cert.KernelIdeal.dot_S5000x128_S128x128_S5000x128_1_0_0_1_n_n 128 rfl rfl).symm]
  refine Finset.sum_congr rfl fun k _ => ?_
  have hk := ValueIdx.contrEquiv1_symm_val Cert.KernelIdeal.dot_S5000x128_S128x128_S5000x128_1_0_0_1_n_n 128 rfl rfl k
  have el : Cert.KernelIdeal.dot_S5000x128_S128x128_S5000x128_1_0_0_1_n_n.lhsIdx (ix2 p q) ((ValueIdx.contrEquiv1 Cert.KernelIdeal.dot_S5000x128_S128x128_S5000x128_1_0_0_1_n_n 128 rfl rfl).symm k) = ix2 p k := funext fun a => Fin.ext (by
    match a with
    | ⟨0, _⟩ => exact kerDot_lhs_0 _ _
    | ⟨1, _⟩ => exact (kerDot_lhs_1 _ _).trans hk)
  have er : Cert.KernelIdeal.dot_S5000x128_S128x128_S5000x128_1_0_0_1_n_n.rhsIdx (ix2 p q) ((ValueIdx.contrEquiv1 Cert.KernelIdeal.dot_S5000x128_S128x128_S5000x128_1_0_0_1_n_n 128 rfl rfl).symm k) = ix2 k q := funext fun a => Fin.ext (by
    match a with
    | ⟨0, _⟩ => exact (kerDot_rhs_0 _ _).trans hk
    | ⟨1, _⟩ => exact kerDot_rhs_1 _ _)
  rw [el, er]

/-! ## The row scaling read at an index -/

/-- The reference's scaled table at (r, k): x (r, k) times the factor of row r (the factor broadcast first to a column,
    then along the row). -/
theorem refScaled_apply (x : FVec Ideal Cert.ReferenceIdeal.S50000x128 .f32) (n : FVec Ideal Cert.ReferenceIdeal.S50000 .f32)
    (r : Fin 50000) (k : Fin 128) :
    mulf x (broadcastInDim Cert.ReferenceIdeal.S50000x128 ![0, 1] Cert.ReferenceIdeal.Facts₀.bcast_S50000x1_S50000x128_0_1
        (broadcastInDim Cert.ReferenceIdeal.S50000x1 ![0] Cert.ReferenceIdeal.Facts₀.bcast_S50000_S50000x1_0 n)) (ix2 r k)
      = x (ix2 r k) * n (ix1 r) := by
  refine congrArg (x (ix2 r k) * ·) ?_
  refine (broadcastInDim_apply _ Cert.ReferenceIdeal.Facts₀.bcast_S50000x1_S50000x128_0_1 _ (ix2 r k) (ix2 r (0 : Fin 1)) (fun a => match a with
    | ⟨0, _⟩ => by show r.val = if (50000 : Nat) = 1 then 0 else r.val; rw [if_neg (by decide)]
    | ⟨1, _⟩ => by show 0 = if (1 : Nat) = 1 then 0 else k.val; rw [if_pos rfl])).trans ?_
  exact broadcastInDim_apply _ Cert.ReferenceIdeal.Facts₀.bcast_S50000_S50000x1_0 n (ix2 r (0 : Fin 1)) (ix1 r) (fun a => match a with
    | ⟨0, _⟩ => by show r.val = if (50000 : Nat) = 1 then 0 else r.val; rw [if_neg (by decide)])

/-- The reference's projection at (r, j): Σ_k (x (r, k) · n r) · w (k, j). -/
theorem projectRef_apply (x : FVec Ideal Cert.ReferenceIdeal.S50000x128 .f32) (n : FVec Ideal Cert.ReferenceIdeal.S50000 .f32)
    (w : FVec Ideal Cert.ReferenceIdeal.S128x128 .f32) (r : Fin 50000) (j : Fin 128) :
    projectRef x n w (ix2 r j) = ∑ k : Fin 128, (x (ix2 r k) * n (ix1 r)) * w (ix2 k j) := by
  refine (refDot_apply _ w r j).trans ?_
  exact Finset.sum_congr rfl fun k _ => congrArg (· * w (ix2 k j)) (refScaled_apply x n r k)

/-- The kernel's scaled block at (p, k): x0 (p, k) times the column block's entry of row p. -/
theorem kerScaled_apply (x0 : Vec Ideal Cert.KernelIdeal.S5000x128 .f32) (x1 : Vec Ideal Cert.KernelIdeal.S5000x1 .f32)
    (p : Fin 5000) (k : Fin 128) :
    mulf (F := Ideal) (φ := .f32) x0 (broadcastTo Cert.KernelIdeal.S5000x128 x1 Cert.KernelIdeal.Facts₀.broadcasts_S5000x1_S5000x128) (ix2 p k)
      = x0 (ix2 p k) * x1 (ix2 p (0 : Fin 1)) := by
  refine congrArg (x0 (ix2 p k) * ·) ?_
  exact broadcastTo_apply x1 Cert.KernelIdeal.Facts₀.broadcasts_S5000x1_S5000x128 (ix2 p k) (ix2 p (0 : Fin 1)) (fun a => match a with
    | ⟨0, _⟩ => by show p.val = if (5000 : Nat) = 1 then 0 else p.val; rw [if_neg (by decide)]
    | ⟨1, _⟩ => by show 0 = if (1 : Nat) = 1 then 0 else k.val; rw [if_pos rfl])

/-- The first projection's payload at (p, q): Σ_k (x0 (p, k) · x1 (p, 0)) · x2 (k, q). -/
theorem pay0_apply (x0 : Vec Ideal Cert.KernelIdeal.S5000x128 .f32) (x1 : Vec Ideal Cert.KernelIdeal.S5000x1 .f32)
    (x2 : Vec Ideal Cert.KernelIdeal.S128x128 .f32) (p : Fin 5000) (q : Fin 128) :
    Cert.KernelIdeal.Gen.k0_pay1 x0 x1 x2 (ix2 p q) = ∑ k : Fin 128, (x0 (ix2 p k) * x1 (ix2 p (0 : Fin 1))) * x2 (ix2 k q) := by
  unfold Cert.KernelIdeal.Gen.k0_pay1
  refine (kerDot_apply _ _ p q).trans ?_
  refine Finset.sum_congr rfl fun k _ => ?_
  refine congrArg (· * x2 (ix2 k q)) ?_
  rw [shapeCast_self]
  exact kerScaled_apply x0 x1 p k

/-- The second projection's payload at (p, q): the same sum. -/
theorem pay2_apply (x0 : Vec Ideal Cert.KernelIdeal.S5000x128 .f32) (x1 : Vec Ideal Cert.KernelIdeal.S5000x1 .f32)
    (x2 : Vec Ideal Cert.KernelIdeal.S128x128 .f32) (p : Fin 5000) (q : Fin 128) :
    Cert.KernelIdeal.Gen.k2_pay1 x0 x1 x2 (ix2 p q) = ∑ k : Fin 128, (x0 (ix2 p k) * x1 (ix2 p (0 : Fin 1))) * x2 (ix2 k q) := by
  unfold Cert.KernelIdeal.Gen.k2_pay1
  refine (kerDot_apply _ _ p q).trans ?_
  refine Finset.sum_congr rfl fun k _ => ?_
  refine congrArg (· * x2 (ix2 k q)) ?_
  rw [shapeCast_self, shapeCast_self]
  exact kerScaled_apply x0 x1 p k

/-! ## The column of factors, and the grid's index maps -/

/-- A vector of 50000 factors cast to a [50000,1] column, read at (r, 0): factor r (both positions are r in row-major order). -/
theorem column_apply (n : FVec Ideal Cert.KernelIdeal.S50000 .f32) (h : Cert.KernelIdeal.S50000.ShapeCasts Cert.KernelIdeal.S50000x1) (r : Fin 50000) :
    shapeCast Cert.KernelIdeal.S50000x1 n h (ix2 r (0 : Fin 1)) = n (ix1 r) :=
  shapeCast_apply n h (ix2 r (0 : Fin 1)) (ix1 r) (by
    rw [Shape.rowMajor_val_one, Shape.rowMajor_val_two]
    show r.val = r.val * 1 + 0
    omega)

theorem hz2 : (![0, 0] : Fin 2 → Nat) = fun _ => 0 := funext fun a => by fin_cases a <;> rfl

/-! ## Region 0: what each grid point writes back, and the whole output array -/

/-- The printed index maps, decided over the ten grid points: the row-blocked windows (table, column, output) are at block
    (t, 0) at point t, the weights at block (0, 0). -/
theorem idx0 : ∀ t : Fin Cert.KernelIdeal.cfg0.N,
    Cert.KernelIdeal.win0_0.index t (0 : Fin 2) = t.val ∧ Cert.KernelIdeal.win0_0.index t (1 : Fin 2) = 0
    ∧ Cert.KernelIdeal.win0_1.index t (0 : Fin 2) = t.val ∧ Cert.KernelIdeal.win0_1.index t (1 : Fin 2) = 0
    ∧ Cert.KernelIdeal.win0_2.index t (0 : Fin 2) = 0 ∧ Cert.KernelIdeal.win0_2.index t (1 : Fin 2) = 0
    ∧ Cert.KernelIdeal.win0_3.index t (0 : Fin 2) = t.val ∧ Cert.KernelIdeal.win0_3.index t (1 : Fin 2) = 0 :=
  (by decide +kernel : ∀ t : Fin Cert.KernelIdeal.grid0.N, _)

/-- The table's block at point t, at (p, k): the table at (5000 t + p, k). -/
theorem blk0_x (V : (c : Dev Cert.KernelIdeal.nD) → (b : Ref Cert.KernelIdeal.sig .tc) → Buf (Elt Ideal) ((c : Thread Cert.KernelIdeal.nD Cert.KernelIdeal.τ).loc b)) (c : Dev Cert.KernelIdeal.nD)
    (t : Fin Cert.KernelIdeal.cfg0.N) (p : Fin 5000) (k : Fin 128) (h : t.val * 5000 + p.val < 50000) :
    Cert.KernelIdeal.Gen.iblk0 V c 0 t (ix2 p k) = V c Cert.KernelIdeal.main_arg0 (ix2 (⟨t.val * 5000 + p.val, h⟩ : Fin 50000) k) := by
  obtain ⟨e00, e01, -⟩ := idx0 t
  show V c Cert.KernelIdeal.main_arg0 (((Cert.KernelIdeal.cfg0.win 0).blk t).view.emb (ix2 p k)) = _
  refine congrArg (V c Cert.KernelIdeal.main_arg0) (funext fun a => Fin.ext ?_)
  match a with
  | ⟨0, _⟩ => show Cert.KernelIdeal.win0_0.index t (0 : Fin 2) * 5000 + 1 * p.val = t.val * 5000 + p.val; omega
  | ⟨1, _⟩ => show Cert.KernelIdeal.win0_0.index t (1 : Fin 2) * 128 + 1 * k.val = k.val; omega

/-- The column's block at point t, at (p, 0): the column at (5000 t + p, 0). -/
theorem blk0_n (V : (c : Dev Cert.KernelIdeal.nD) → (b : Ref Cert.KernelIdeal.sig .tc) → Buf (Elt Ideal) ((c : Thread Cert.KernelIdeal.nD Cert.KernelIdeal.τ).loc b)) (c : Dev Cert.KernelIdeal.nD)
    (t : Fin Cert.KernelIdeal.cfg0.N) (p : Fin 5000) (h : t.val * 5000 + p.val < 50000) :
    Cert.KernelIdeal.Gen.iblk0 V c 1 t (ix2 p (0 : Fin 1)) = V c Cert.KernelIdeal.main_v13 (ix2 (⟨t.val * 5000 + p.val, h⟩ : Fin 50000) (0 : Fin 1)) := by
  obtain ⟨-, -, e10, e11, -⟩ := idx0 t
  show V c Cert.KernelIdeal.main_v13 (((Cert.KernelIdeal.cfg0.win 1).blk t).view.emb (ix2 p (0 : Fin 1))) = _
  refine congrArg (V c Cert.KernelIdeal.main_v13) (funext fun a => Fin.ext ?_)
  match a with
  | ⟨0, _⟩ => show Cert.KernelIdeal.win0_1.index t (0 : Fin 2) * 5000 + 1 * p.val = t.val * 5000 + p.val; omega
  | ⟨1, _⟩ => show Cert.KernelIdeal.win0_1.index t (1 : Fin 2) * 1 + 1 * 0 = 0; omega

/-- The weights' block at every point is the whole matrix. -/
theorem blk0_w (V : (c : Dev Cert.KernelIdeal.nD) → (b : Ref Cert.KernelIdeal.sig .tc) → Buf (Elt Ideal) ((c : Thread Cert.KernelIdeal.nD Cert.KernelIdeal.τ).loc b)) (c : Dev Cert.KernelIdeal.nD)
    (t : Fin Cert.KernelIdeal.cfg0.N) (k : Fin 128) (q : Fin 128) :
    Cert.KernelIdeal.Gen.iblk0 V c 2 t (ix2 k q) = V c Cert.KernelIdeal.main_arg7 (ix2 k q) := by
  obtain ⟨-, -, -, -, e20, e21, -⟩ := idx0 t
  show V c Cert.KernelIdeal.main_arg7 (((Cert.KernelIdeal.cfg0.win 2).blk t).view.emb (ix2 k q)) = _
  refine congrArg (V c Cert.KernelIdeal.main_arg7) (funext fun a => Fin.ext ?_)
  match a with
  | ⟨0, _⟩ => show Cert.KernelIdeal.win0_2.index t (0 : Fin 2) * 128 + 1 * k.val = k.val; omega
  | ⟨1, _⟩ => show Cert.KernelIdeal.win0_2.index t (1 : Fin 2) * 128 + 1 * q.val = q.val; omega

/-- WHAT POINT t WRITES BACK is block t of the reference's projection of the three arrays the region finds. -/
theorem flushed0_eq (V : (c : Dev Cert.KernelIdeal.nD) → (b : Ref Cert.KernelIdeal.sig .tc) → Buf (Elt Ideal) ((c : Thread Cert.KernelIdeal.nD Cert.KernelIdeal.τ).loc b)) (c : Dev Cert.KernelIdeal.nD)
    (x : FVec Ideal Cert.ReferenceIdeal.S50000x128 .f32) (n : FVec Ideal Cert.ReferenceIdeal.S50000 .f32) (w : FVec Ideal Cert.ReferenceIdeal.S128x128 .f32)
    (hx : V c Cert.KernelIdeal.main_arg0 = x)
    (hn : V c Cert.KernelIdeal.main_v13 = shapeCast Cert.KernelIdeal.S50000x1 n Cert.KernelIdeal.Facts₀.shapeCasts_S50000_S50000x1)
    (hw : V c Cert.KernelIdeal.main_arg7 = w) (t : Fin Cert.KernelIdeal.cfg0.N) :
    (Cert.KernelIdeal.Gen.dat0 V c).flushed 3 t = ((Cert.KernelIdeal.cfg0.win 3).blk t).view.read (Elt Ideal) (projectRef x n w) := by
  show (Cert.KernelIdeal.cfg0.win 3).cut (Cert.KernelIdeal.grid0.coords t) ((Cert.KernelIdeal.Gen.dat0 V c).after 3 t) = _
  rw [Cert.KernelIdeal.Gen.after0_3]
  unfold Cert.KernelIdeal.Gen.out0_3
  rw [View.canon_unit_zero hz2]
  simp only [View.ld_unit_zero (S := Cert.KernelIdeal.S5000x128) hz2, View.ld_unit_zero (S := Cert.KernelIdeal.S5000x1) hz2, View.ld_unit_zero (S := Cert.KernelIdeal.S128x128) hz2]
  funext j
  obtain ⟨p, q, rfl⟩ : ∃ (p : Fin 5000) (q : Fin 128), j = ix2 p q := ⟨j 0, j 1, eq_ix2 j⟩
  have ht : t.val < 10 := lt_of_lt_of_eq t.isLt Cert.KernelIdeal.Gen.N_0
  have hr : t.val * 5000 + p.val < 50000 := by have := p.isLt; omega
  obtain ⟨-, -, -, -, -, -, e30, e31⟩ := idx0 t
  show Cert.KernelIdeal.Gen.k0_pay1 (Cert.KernelIdeal.Gen.iblk0 V c 0 t) (Cert.KernelIdeal.Gen.iblk0 V c 1 t) (Cert.KernelIdeal.Gen.iblk0 V c 2 t) (ix2 p q)
    = projectRef x n w (((Cert.KernelIdeal.cfg0.win 3).blk t).view.emb (ix2 p q))
  have hemb : ((Cert.KernelIdeal.cfg0.win 3).blk t).view.emb (ix2 p q) = ix2 (⟨t.val * 5000 + p.val, hr⟩ : Fin 50000) q := by
    funext a; apply Fin.ext
    match a with
    | ⟨0, _⟩ => show Cert.KernelIdeal.win0_3.index t (0 : Fin 2) * 5000 + 1 * p.val = t.val * 5000 + p.val; omega
    | ⟨1, _⟩ => show Cert.KernelIdeal.win0_3.index t (1 : Fin 2) * 128 + 1 * q.val = q.val; omega
  rw [hemb]
  refine (pay0_apply (Cert.KernelIdeal.Gen.iblk0 V c 0 t) (Cert.KernelIdeal.Gen.iblk0 V c 1 t) (Cert.KernelIdeal.Gen.iblk0 V c 2 t) p q).trans ?_
  refine Eq.trans ?_ (projectRef_apply x n w ⟨t.val * 5000 + p.val, hr⟩ q).symm
  refine Finset.sum_congr rfl fun k _ => ?_
  have hX : Cert.KernelIdeal.Gen.iblk0 V c 0 t (ix2 p k) = x (ix2 (⟨t.val * 5000 + p.val, hr⟩ : Fin 50000) k) :=
    (blk0_x V c t p k hr).trans (congrFun hx _)
  have hN : Cert.KernelIdeal.Gen.iblk0 V c 1 t (ix2 p (0 : Fin 1)) = n (ix1 (⟨t.val * 5000 + p.val, hr⟩ : Fin 50000)) :=
    (blk0_n V c t p hr).trans ((congrFun hn _).trans (column_apply n _ _))
  have hW : Cert.KernelIdeal.Gen.iblk0 V c 2 t (ix2 k q) = w (ix2 k q) :=
    (blk0_w V c t k q).trans (congrFun hw _)
  exact congrArg₂ (· * ·) (congrArg₂ (· * ·) hX hN) hW

/-- An index of the output array is in point t's block iff each coordinate is in the block's range on its axis. -/
theorem mem_blk0 (t : Fin Cert.KernelIdeal.cfg0.N) (i : Cert.KernelIdeal.S50000x128.Idx) :
    i ∈ ((Cert.KernelIdeal.cfg0.win 3).blk t).view.set ↔ ∀ a : Fin 2, Cert.KernelIdeal.win0_3.index t a * Cert.KernelIdeal.S5000x128.size a ≤ (i a).val ∧ (i a).val < Cert.KernelIdeal.win0_3.index t a * Cert.KernelIdeal.S5000x128.size a + Cert.KernelIdeal.S5000x128.size a := by
  show i ∈ ((View.whole Cert.KernelIdeal.main_v14).slice (Cert.KernelIdeal.win0_3.rect t)).set ↔ _
  rw [View.set_slice_whole, Rect.mem_set_unit]
  exact Iff.rfl

/-- Every index of the output array is in some point's block: row r is in block r / 5000. -/
theorem cover0 (i : Cert.KernelIdeal.S50000x128.Idx) :
    ∃ t : Fin Cert.KernelIdeal.cfg0.N, (Cert.KernelIdeal.cfg0.win 3).flush t = true ∧ i ∈ ((Cert.KernelIdeal.cfg0.win 3).blk t).view.set := by
  have hi0 : (i 0).val < 50000 := (i 0).isLt
  have hi1 : (i 1).val < 128 := (i 1).isLt
  have hN : (i 0).val / 5000 < Cert.KernelIdeal.cfg0.N := lt_of_lt_of_eq (show (i 0).val / 5000 < 10 by omega) Cert.KernelIdeal.Gen.N_0.symm
  obtain ⟨-, -, -, -, -, -, e30, e31⟩ := idx0 ⟨(i 0).val / 5000, hN⟩
  have e30' : Cert.KernelIdeal.win0_3.index ⟨(i 0).val / 5000, hN⟩ (0 : Fin 2) = (i 0).val / 5000 := e30
  refine ⟨⟨(i 0).val / 5000, hN⟩, Cert.KernelIdeal.Gen.flush0_3 _, ?_⟩
  rw [mem_blk0]
  intro a
  match a with
  | ⟨0, _⟩ => show Cert.KernelIdeal.win0_3.index ⟨(i 0).val / 5000, hN⟩ (0 : Fin 2) * 5000 ≤ (i 0).val ∧ (i 0).val < Cert.KernelIdeal.win0_3.index ⟨(i 0).val / 5000, hN⟩ (0 : Fin 2) * 5000 + 5000; omega
  | ⟨1, _⟩ => show Cert.KernelIdeal.win0_3.index ⟨(i 0).val / 5000, hN⟩ (1 : Fin 2) * 128 ≤ (i 1).val ∧ (i 1).val < Cert.KernelIdeal.win0_3.index ⟨(i 0).val / 5000, hN⟩ (1 : Fin 2) * 128 + 128; omega

/-! ## Region 2: what each grid point writes back, and the whole output array -/

/-- The printed index maps, decided over the ten grid points: the row-blocked windows (table, column, output) are at block
    (t, 0) at point t, the weights at block (0, 0). -/
theorem idx2 : ∀ t : Fin Cert.KernelIdeal.cfg2.N,
    Cert.KernelIdeal.win2_0.index t (0 : Fin 2) = t.val ∧ Cert.KernelIdeal.win2_0.index t (1 : Fin 2) = 0
    ∧ Cert.KernelIdeal.win2_1.index t (0 : Fin 2) = t.val ∧ Cert.KernelIdeal.win2_1.index t (1 : Fin 2) = 0
    ∧ Cert.KernelIdeal.win2_2.index t (0 : Fin 2) = 0 ∧ Cert.KernelIdeal.win2_2.index t (1 : Fin 2) = 0
    ∧ Cert.KernelIdeal.win2_3.index t (0 : Fin 2) = t.val ∧ Cert.KernelIdeal.win2_3.index t (1 : Fin 2) = 0 :=
  (by decide +kernel : ∀ t : Fin Cert.KernelIdeal.grid2.N, _)

/-- The table's block at point t, at (p, k): the table at (5000 t + p, k). -/
theorem blk2_x (V : (c : Dev Cert.KernelIdeal.nD) → (b : Ref Cert.KernelIdeal.sig .tc) → Buf (Elt Ideal) ((c : Thread Cert.KernelIdeal.nD Cert.KernelIdeal.τ).loc b)) (c : Dev Cert.KernelIdeal.nD)
    (t : Fin Cert.KernelIdeal.cfg2.N) (p : Fin 5000) (k : Fin 128) (h : t.val * 5000 + p.val < 50000) :
    Cert.KernelIdeal.Gen.iblk2 V c 0 t (ix2 p k) = V c Cert.KernelIdeal.main_v27 (ix2 (⟨t.val * 5000 + p.val, h⟩ : Fin 50000) k) := by
  obtain ⟨e00, e01, -⟩ := idx2 t
  show V c Cert.KernelIdeal.main_v27 (((Cert.KernelIdeal.cfg2.win 0).blk t).view.emb (ix2 p k)) = _
  refine congrArg (V c Cert.KernelIdeal.main_v27) (funext fun a => Fin.ext ?_)
  match a with
  | ⟨0, _⟩ => show Cert.KernelIdeal.win2_0.index t (0 : Fin 2) * 5000 + 1 * p.val = t.val * 5000 + p.val; omega
  | ⟨1, _⟩ => show Cert.KernelIdeal.win2_0.index t (1 : Fin 2) * 128 + 1 * k.val = k.val; omega

/-- The column's block at point t, at (p, 0): the column at (5000 t + p, 0). -/
theorem blk2_n (V : (c : Dev Cert.KernelIdeal.nD) → (b : Ref Cert.KernelIdeal.sig .tc) → Buf (Elt Ideal) ((c : Thread Cert.KernelIdeal.nD Cert.KernelIdeal.τ).loc b)) (c : Dev Cert.KernelIdeal.nD)
    (t : Fin Cert.KernelIdeal.cfg2.N) (p : Fin 5000) (h : t.val * 5000 + p.val < 50000) :
    Cert.KernelIdeal.Gen.iblk2 V c 1 t (ix2 p (0 : Fin 1)) = V c Cert.KernelIdeal.main_v28 (ix2 (⟨t.val * 5000 + p.val, h⟩ : Fin 50000) (0 : Fin 1)) := by
  obtain ⟨-, -, e10, e11, -⟩ := idx2 t
  show V c Cert.KernelIdeal.main_v28 (((Cert.KernelIdeal.cfg2.win 1).blk t).view.emb (ix2 p (0 : Fin 1))) = _
  refine congrArg (V c Cert.KernelIdeal.main_v28) (funext fun a => Fin.ext ?_)
  match a with
  | ⟨0, _⟩ => show Cert.KernelIdeal.win2_1.index t (0 : Fin 2) * 5000 + 1 * p.val = t.val * 5000 + p.val; omega
  | ⟨1, _⟩ => show Cert.KernelIdeal.win2_1.index t (1 : Fin 2) * 1 + 1 * 0 = 0; omega

/-- The weights' block at every point is the whole matrix. -/
theorem blk2_w (V : (c : Dev Cert.KernelIdeal.nD) → (b : Ref Cert.KernelIdeal.sig .tc) → Buf (Elt Ideal) ((c : Thread Cert.KernelIdeal.nD Cert.KernelIdeal.τ).loc b)) (c : Dev Cert.KernelIdeal.nD)
    (t : Fin Cert.KernelIdeal.cfg2.N) (k : Fin 128) (q : Fin 128) :
    Cert.KernelIdeal.Gen.iblk2 V c 2 t (ix2 k q) = V c Cert.KernelIdeal.main_arg9 (ix2 k q) := by
  obtain ⟨-, -, -, -, e20, e21, -⟩ := idx2 t
  show V c Cert.KernelIdeal.main_arg9 (((Cert.KernelIdeal.cfg2.win 2).blk t).view.emb (ix2 k q)) = _
  refine congrArg (V c Cert.KernelIdeal.main_arg9) (funext fun a => Fin.ext ?_)
  match a with
  | ⟨0, _⟩ => show Cert.KernelIdeal.win2_2.index t (0 : Fin 2) * 128 + 1 * k.val = k.val; omega
  | ⟨1, _⟩ => show Cert.KernelIdeal.win2_2.index t (1 : Fin 2) * 128 + 1 * q.val = q.val; omega

/-- WHAT POINT t WRITES BACK is block t of the reference's projection of the three arrays the region finds. -/
theorem flushed2_eq (V : (c : Dev Cert.KernelIdeal.nD) → (b : Ref Cert.KernelIdeal.sig .tc) → Buf (Elt Ideal) ((c : Thread Cert.KernelIdeal.nD Cert.KernelIdeal.τ).loc b)) (c : Dev Cert.KernelIdeal.nD)
    (x : FVec Ideal Cert.ReferenceIdeal.S50000x128 .f32) (n : FVec Ideal Cert.ReferenceIdeal.S50000 .f32) (w : FVec Ideal Cert.ReferenceIdeal.S128x128 .f32)
    (hx : V c Cert.KernelIdeal.main_v27 = x)
    (hn : V c Cert.KernelIdeal.main_v28 = shapeCast Cert.KernelIdeal.S50000x1 n Cert.KernelIdeal.Facts₀.shapeCasts_S50000_S50000x1)
    (hw : V c Cert.KernelIdeal.main_arg9 = w) (t : Fin Cert.KernelIdeal.cfg2.N) :
    (Cert.KernelIdeal.Gen.dat2 V c).flushed 3 t = ((Cert.KernelIdeal.cfg2.win 3).blk t).view.read (Elt Ideal) (projectRef x n w) := by
  show (Cert.KernelIdeal.cfg2.win 3).cut (Cert.KernelIdeal.grid2.coords t) ((Cert.KernelIdeal.Gen.dat2 V c).after 3 t) = _
  rw [Cert.KernelIdeal.Gen.after2_3]
  unfold Cert.KernelIdeal.Gen.out2_3
  rw [View.canon_unit_zero hz2]
  simp only [View.ld_unit_zero (S := Cert.KernelIdeal.S5000x128) hz2, View.ld_unit_zero (S := Cert.KernelIdeal.S5000x1) hz2, View.ld_unit_zero (S := Cert.KernelIdeal.S128x128) hz2]
  funext j
  obtain ⟨p, q, rfl⟩ : ∃ (p : Fin 5000) (q : Fin 128), j = ix2 p q := ⟨j 0, j 1, eq_ix2 j⟩
  have ht : t.val < 10 := lt_of_lt_of_eq t.isLt Cert.KernelIdeal.Gen.N_2
  have hr : t.val * 5000 + p.val < 50000 := by have := p.isLt; omega
  obtain ⟨-, -, -, -, -, -, e30, e31⟩ := idx2 t
  show Cert.KernelIdeal.Gen.k2_pay1 (Cert.KernelIdeal.Gen.iblk2 V c 0 t) (Cert.KernelIdeal.Gen.iblk2 V c 1 t) (Cert.KernelIdeal.Gen.iblk2 V c 2 t) (ix2 p q)
    = projectRef x n w (((Cert.KernelIdeal.cfg2.win 3).blk t).view.emb (ix2 p q))
  have hemb : ((Cert.KernelIdeal.cfg2.win 3).blk t).view.emb (ix2 p q) = ix2 (⟨t.val * 5000 + p.val, hr⟩ : Fin 50000) q := by
    funext a; apply Fin.ext
    match a with
    | ⟨0, _⟩ => show Cert.KernelIdeal.win2_3.index t (0 : Fin 2) * 5000 + 1 * p.val = t.val * 5000 + p.val; omega
    | ⟨1, _⟩ => show Cert.KernelIdeal.win2_3.index t (1 : Fin 2) * 128 + 1 * q.val = q.val; omega
  rw [hemb]
  refine (pay2_apply (Cert.KernelIdeal.Gen.iblk2 V c 0 t) (Cert.KernelIdeal.Gen.iblk2 V c 1 t) (Cert.KernelIdeal.Gen.iblk2 V c 2 t) p q).trans ?_
  refine Eq.trans ?_ (projectRef_apply x n w ⟨t.val * 5000 + p.val, hr⟩ q).symm
  refine Finset.sum_congr rfl fun k _ => ?_
  have hX : Cert.KernelIdeal.Gen.iblk2 V c 0 t (ix2 p k) = x (ix2 (⟨t.val * 5000 + p.val, hr⟩ : Fin 50000) k) :=
    (blk2_x V c t p k hr).trans (congrFun hx _)
  have hN : Cert.KernelIdeal.Gen.iblk2 V c 1 t (ix2 p (0 : Fin 1)) = n (ix1 (⟨t.val * 5000 + p.val, hr⟩ : Fin 50000)) :=
    (blk2_n V c t p hr).trans ((congrFun hn _).trans (column_apply n _ _))
  have hW : Cert.KernelIdeal.Gen.iblk2 V c 2 t (ix2 k q) = w (ix2 k q) :=
    (blk2_w V c t k q).trans (congrFun hw _)
  exact congrArg₂ (· * ·) (congrArg₂ (· * ·) hX hN) hW

/-- An index of the output array is in point t's block iff each coordinate is in the block's range on its axis. -/
theorem mem_blk2 (t : Fin Cert.KernelIdeal.cfg2.N) (i : Cert.KernelIdeal.S50000x128.Idx) :
    i ∈ ((Cert.KernelIdeal.cfg2.win 3).blk t).view.set ↔ ∀ a : Fin 2, Cert.KernelIdeal.win2_3.index t a * Cert.KernelIdeal.S5000x128.size a ≤ (i a).val ∧ (i a).val < Cert.KernelIdeal.win2_3.index t a * Cert.KernelIdeal.S5000x128.size a + Cert.KernelIdeal.S5000x128.size a := by
  show i ∈ ((View.whole Cert.KernelIdeal.main_v29).slice (Cert.KernelIdeal.win2_3.rect t)).set ↔ _
  rw [View.set_slice_whole, Rect.mem_set_unit]
  exact Iff.rfl

/-- Every index of the output array is in some point's block: row r is in block r / 5000. -/
theorem cover2 (i : Cert.KernelIdeal.S50000x128.Idx) :
    ∃ t : Fin Cert.KernelIdeal.cfg2.N, (Cert.KernelIdeal.cfg2.win 3).flush t = true ∧ i ∈ ((Cert.KernelIdeal.cfg2.win 3).blk t).view.set := by
  have hi0 : (i 0).val < 50000 := (i 0).isLt
  have hi1 : (i 1).val < 128 := (i 1).isLt
  have hN : (i 0).val / 5000 < Cert.KernelIdeal.cfg2.N := lt_of_lt_of_eq (show (i 0).val / 5000 < 10 by omega) Cert.KernelIdeal.Gen.N_2.symm
  obtain ⟨-, -, -, -, -, -, e30, e31⟩ := idx2 ⟨(i 0).val / 5000, hN⟩
  have e30' : Cert.KernelIdeal.win2_3.index ⟨(i 0).val / 5000, hN⟩ (0 : Fin 2) = (i 0).val / 5000 := e30
  refine ⟨⟨(i 0).val / 5000, hN⟩, Cert.KernelIdeal.Gen.flush2_3 _, ?_⟩
  rw [mem_blk2]
  intro a
  match a with
  | ⟨0, _⟩ => show Cert.KernelIdeal.win2_3.index ⟨(i 0).val / 5000, hN⟩ (0 : Fin 2) * 5000 ≤ (i 0).val ∧ (i 0).val < Cert.KernelIdeal.win2_3.index ⟨(i 0).val / 5000, hN⟩ (0 : Fin 2) * 5000 + 5000; omega
  | ⟨1, _⟩ => show Cert.KernelIdeal.win2_3.index ⟨(i 0).val / 5000, hN⟩ (1 : Fin 2) * 128 ≤ (i 1).val ∧ (i 1).val < Cert.KernelIdeal.win2_3.index ⟨(i 0).val / 5000, hN⟩ (1 : Fin 2) * 128 + 128; omega

end Project

theorem project0 (V : (c : Dev Cert.KernelIdeal.nD) → (b : Ref Cert.KernelIdeal.sig .tc) → Buf (Elt Ideal) ((c : Thread Cert.KernelIdeal.nD Cert.KernelIdeal.τ).loc b)) (c : Dev Cert.KernelIdeal.nD)
    (x : FVec Ideal Cert.ReferenceIdeal.S50000x128 .f32) (n : FVec Ideal Cert.ReferenceIdeal.S50000 .f32) (w : FVec Ideal Cert.ReferenceIdeal.S128x128 .f32)
    (hx : V c Cert.KernelIdeal.main_arg0 = x)
    (hn : V c Cert.KernelIdeal.main_v13 = shapeCast Cert.KernelIdeal.S50000x1 n Cert.KernelIdeal.Facts₀.shapeCasts_S50000_S50000x1)
    (hw : V c Cert.KernelIdeal.main_arg7 = w) :
    (Cert.KernelIdeal.Gen.dat0 V c).arrAt 3 Cert.KernelIdeal.cfg0.N = projectRef x n w :=
  (Cert.KernelIdeal.Gen.dat0 V c).arrAt_eq_of_cover 3 (projectRef x n w)
    (fun t _ => Project.flushed0_eq V c x n w hx hn hw t) (fun i => Project.cover0 i)

theorem project2 (V : (c : Dev Cert.KernelIdeal.nD) → (b : Ref Cert.KernelIdeal.sig .tc) → Buf (Elt Ideal) ((c : Thread Cert.KernelIdeal.nD Cert.KernelIdeal.τ).loc b)) (c : Dev Cert.KernelIdeal.nD)
    (x : FVec Ideal Cert.ReferenceIdeal.S50000x128 .f32) (n : FVec Ideal Cert.ReferenceIdeal.S50000 .f32) (w : FVec Ideal Cert.ReferenceIdeal.S128x128 .f32)
    (hx : V c Cert.KernelIdeal.main_v27 = x)
    (hn : V c Cert.KernelIdeal.main_v28 = shapeCast Cert.KernelIdeal.S50000x1 n Cert.KernelIdeal.Facts₀.shapeCasts_S50000_S50000x1)
    (hw : V c Cert.KernelIdeal.main_arg9 = w) :
    (Cert.KernelIdeal.Gen.dat2 V c).arrAt 3 Cert.KernelIdeal.cfg2.N = projectRef x n w :=
  (Cert.KernelIdeal.Gen.dat2 V c).arrAt_eq_of_cover 3 (projectRef x n w)
    (fun t _ => Project.flushed2_eq V c x n w hx hn hw t) (fun i => Project.cover2 i)

end Cert.Bridge

end
-- ==== Proof.Finalize.lean ====
import proofs.«178768_j4733053960250_1_alg».proof.ReferenceIdeal
import proofs.«178768_j4733053960250_1_alg».proof.Proof.Gen.ReferenceIdeal
import proofs.«178768_j4733053960250_1_alg».proof.Proof.Gen.KernelIdeal.Frame
import proofs.«178768_j4733053960250_1_alg».proof.Proof.RefOps
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

/-
  The node update max(agg[r, j] · n[r] + b[j], 0) over 50000 rows and 128 columns, computed block by block: ten grid
  points, point t holding rows 5000·t … 5000·t + 4999 of the aggregate and of the factor column, and the whole bias
  row. Each point writes back its block of ONE whole-array function, the node update of the three operand arrays, and
  the ten blocks cover the array; so the array ends holding that function. Stated once for each layer's update.
-/

set_option maxRecDepth 16384

noncomputable section

open Idealize.ShloMosaic Idealize.ShloMosaic.TcCoe Idealize.SL.Sem

namespace Cert.Bridge

section Shared
open Idealize.ShloMosaic.ValueIdx

open Cert.ReferenceIdeal Cert.ReferenceIdeal.Facts₀ in
/-- The node update at row r, column q is max(agg[r, q] · n[r] + b[q], 0): the factor, laid as a column and then across
    the columns, reads n[r]; the bias, laid as a row and then down the rows, reads b[q]; and the constant zero laid
    over the array is the splat of the same zero. -/
theorem finalizeRef_apply (agg : FVec Ideal Cert.ReferenceIdeal.S50000x128 .f32) (n : FVec Ideal Cert.ReferenceIdeal.S50000 .f32)
    (b : FVec Ideal Cert.ReferenceIdeal.S128 .f32) (r : Fin 50000) (q : Fin 128) :
    finalizeRef agg n b (ix2 r q)
      = max (agg (ix2 r q) * n (ix1 r) + b (ix1 q)) (Scalar.ofBits (F := Ideal) .f32 0x00000000#32) := by
  have e1 : broadcastInDim S50000x128 ![0, 1] bcast_S50000x1_S50000x128_0_1 (broadcastInDim S50000x1 ![0] bcast_S50000_S50000x1_0 n) (ix2 r q)
      = n (ix1 r) := by
    refine (broadcastInDim_apply _ bcast_S50000x1_S50000x128_0_1 _ (ix2 r q) (ix2 r (0 : Fin 1)) ?_).trans ?_
    · intro a
      match a with
      | ⟨0, _⟩ => show r.val = if (50000 : Nat) = 1 then 0 else r.val; rw [if_neg (by decide)]
      | ⟨1, _⟩ => show 0 = if (1 : Nat) = 1 then 0 else q.val; rw [if_pos rfl]
    · refine broadcastInDim_apply _ bcast_S50000_S50000x1_0 n (ix2 r (0 : Fin 1)) (ix1 r) ?_
      intro a
      match a with
      | ⟨0, _⟩ => show r.val = if (50000 : Nat) = 1 then 0 else r.val; rw [if_neg (by decide)]
  have e2 : broadcastInDim S50000x128 ![0, 1] bcast_S1x128_S50000x128_0_1 (broadcastInDim S1x128 ![1] bcast_S128_S1x128_1 b) (ix2 r q)
      = b (ix1 q) := by
    refine (broadcastInDim_apply _ bcast_S1x128_S50000x128_0_1 _ (ix2 r q) (ix2 (0 : Fin 1) q) ?_).trans ?_
    · intro a
      match a with
      | ⟨0, _⟩ => show 0 = if (1 : Nat) = 1 then 0 else r.val; rw [if_pos rfl]
      | ⟨1, _⟩ => show q.val = if (128 : Nat) = 1 then 0 else q.val; rw [if_neg (by decide)]
    · refine broadcastInDim_apply _ bcast_S128_S1x128_1 b (ix2 (0 : Fin 1) q) (ix1 q) ?_
      intro a
      match a with
      | ⟨0, _⟩ => show q.val = if (128 : Nat) = 1 then 0 else q.val; rw [if_neg (by decide)]
  have e3 : broadcastInDim S50000x128 ![] bcast_S_S50000x128 (constant (F := Ideal) S_ .f32 0x00000000#32)
      = broadcast S50000x128 (Scalar.ofBits (F := Ideal) .f32 0x00000000#32) :=
    broadcastInDim_constant _ _ _
  show max (agg (ix2 r q) * broadcastInDim S50000x128 ![0, 1] bcast_S50000x1_S50000x128_0_1 (broadcastInDim S50000x1 ![0] bcast_S50000_S50000x1_0 n) (ix2 r q)
      + broadcastInDim S50000x128 ![0, 1] bcast_S1x128_S50000x128_0_1 (broadcastInDim S1x128 ![1] bcast_S128_S1x128_1 b) (ix2 r q))
      (broadcastInDim S50000x128 ![] bcast_S_S50000x128 (constant (F := Ideal) S_ .f32 0x00000000#32) (ix2 r q)) = _
  rw [e1, e2, e3]
  rfl

/-- A vector of 50000 entries cast to a column, read at (r, 0), is the vector at r: the two row-major positions agree. -/
theorem col_apply (n : FVec Ideal Cert.ReferenceIdeal.S50000 .f32) (r : Fin 50000) :
    shapeCast Cert.KernelIdeal.S50000x1 n Cert.KernelIdeal.Facts₀.shapeCasts_S50000_S50000x1 (ix2 r (0 : Fin 1)) = n (ix1 r) :=
  shapeCast_apply n _ (ix2 r (0 : Fin 1)) (ix1 r) (by
    rw [Shape.rowMajor_val_one, Shape.rowMajor_val_two]; show r.val = r.val * 1 + 0; omega)

/-- A vector of 128 entries cast to a row, read at (0, q), is the vector at q: the two row-major positions agree. -/
theorem row_apply (b : FVec Ideal Cert.ReferenceIdeal.S128 .f32) (q : Fin 128) :
    shapeCast Cert.KernelIdeal.S1x128 b Cert.KernelIdeal.Facts₀.shapeCasts_S128_S1x128 (ix2 (0 : Fin 1) q) = b (ix1 q) :=
  shapeCast_apply b _ (ix2 (0 : Fin 1) q) (ix1 q) (by
    rw [Shape.rowMajor_val_one, Shape.rowMajor_val_two]; show q.val = 0 * 128 + q.val; omega)

/-- The zero offsets of a whole block, spelt as a literal pair, are the zero function. -/
theorem hz2 : (![0, 0] : Fin 2 → Nat) = fun _ => 0 := funext fun a => by fin_cases a <;> rfl

end Shared

section Region1
open Cert.KernelIdeal Cert.KernelIdeal.Gen
open Idealize.ShloMosaic.Pipeline (Dat)
open Idealize.ShloMosaic.ValueIdx

/-- The block function at row p, column q of a block is max(x0[p, q] · x1[p, 0] + x2[0, q], 0): the casts to the same
    shape are the identity, the column laid across the columns reads its row's entry, the row laid down the rows reads
    its column's entry, and the splat reads its scalar. -/
theorem pay1_apply (x0 : Vec Ideal Cert.KernelIdeal.S5000x128 .f32) (x1 : Vec Ideal Cert.KernelIdeal.S5000x1 .f32)
    (x2 : Vec Ideal Cert.KernelIdeal.S1x128 .f32) (p : Fin 5000) (q : Fin 128) :
    k1_pay1 x0 x1 x2 (ix2 p q)
      = max (x0 (ix2 p q) * x1 (ix2 p (0 : Fin 1)) + x2 (ix2 (0 : Fin 1) q)) (Scalar.ofBits (F := Ideal) .f32 0x00000000#32) := by
  have e1 : broadcastTo S5000x128 (shapeCast S5000x1 x1 shapeCasts_S5000x1_S5000x1) broadcasts_S5000x1_S5000x128 (ix2 p q)
      = x1 (ix2 p (0 : Fin 1)) := by
    refine (broadcastTo_apply _ broadcasts_S5000x1_S5000x128 (ix2 p q) (ix2 p (0 : Fin 1)) ?_).trans ?_
    · intro a
      match a with
      | ⟨0, _⟩ => show p.val = if (5000 : Nat) = 1 then 0 else p.val; rw [if_neg (by decide)]
      | ⟨1, _⟩ => show 0 = if (1 : Nat) = 1 then 0 else q.val; rw [if_pos rfl]
    · rw [shapeCast_self]
  have e2 : broadcastTo S5000x128 (shapeCast S1x128 x2 shapeCasts_S1x128_S1x128) broadcasts_S1x128_S5000x128 (ix2 p q)
      = x2 (ix2 (0 : Fin 1) q) := by
    refine (broadcastTo_apply _ broadcasts_S1x128_S5000x128 (ix2 p q) (ix2 (0 : Fin 1) q) ?_).trans ?_
    · intro a
      match a with
      | ⟨0, _⟩ => show 0 = if (1 : Nat) = 1 then 0 else p.val; rw [if_pos rfl]
      | ⟨1, _⟩ => show q.val = if (128 : Nat) = 1 then 0 else q.val; rw [if_neg (by decide)]
    · rw [shapeCast_self]
  unfold k1_pay1
  show max (shapeCast S5000x128 x0 shapeCasts_S5000x128_S5000x128 (ix2 p q)
        * broadcastTo S5000x128 (shapeCast S5000x1 x1 shapeCasts_S5000x1_S5000x1) broadcasts_S5000x1_S5000x128 (ix2 p q)
      + broadcastTo S5000x128 (shapeCast S1x128 x2 shapeCasts_S1x128_S1x128) broadcasts_S1x128_S5000x128 (ix2 p q))
      (Scalar.ofBits (F := Ideal) .f32 0x00000000#32) = _
  rw [e1, e2, shapeCast_self]

/-- The block index maps at each of the ten grid points: for the aggregate, the factor column and the output the block
    index is the point on axis 0 and zero on axis 1; for the bias row it is zero on both. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b)) (c : Dev nD)

/-- The aggregate's block at point t, read at (p, q), is the array at row t · 5000 + p, column q: a block's coordinate
    in the array is the block index times the block's size plus the coordinate inside the block. -/
theorem blk1_0_read (t : Fin cfg1.N) (p : Fin 5000) (q : Fin 128) (hr : t.val * 5000 + p.val < 50000) :
    iblk1 V c 0 t (ix2 p q) = V c main_v24 (ix2 (⟨t.val * 5000 + p.val, hr⟩ : Fin 50000) q) := by
  obtain ⟨e00, e01, -⟩ := idx_facts1 t
  show V c main_v24 (((cfg1.win 0).blk t).view.emb (ix2 p q)) = _
  refine congrArg (V c main_v24) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * q.val = q.val; omega

/-- The factor column's block at point t, read at (p, 0), is the column at row t · 5000 + p. -/
theorem blk1_1_read (t : Fin cfg1.N) (p : Fin 5000) (hr : t.val * 5000 + p.val < 50000) :
    iblk1 V c 1 t (ix2 p (0 : Fin 1)) = V c main_v25 (ix2 (⟨t.val * 5000 + p.val, hr⟩ : Fin 50000) (0 : Fin 1)) := by
  obtain ⟨-, -, e10, e11, -⟩ := idx_facts1 t
  show V c main_v25 (((cfg1.win 1).blk t).view.emb (ix2 p (0 : Fin 1))) = _
  refine congrArg (V c main_v25) (funext fun a => Fin.ext ?_)
  match a with
  | ⟨0, _⟩ => show win1_1.index t (0 : Fin 2) * 5000 + 1 * p.val = t.val * 5000 + p.val; omega
  | ⟨1, _⟩ => show win1_1.index t (1 : Fin 2) * 1 + 1 * 0 = 0; omega

/-- The bias row's block, the whole row at every point, read at (0, q), is the row at column q. -/
theorem blk1_2_read (t : Fin cfg1.N) (q : Fin 128) :
    iblk1 V c 2 t (ix2 (0 : Fin 1) q) = V c main_v26 (ix2 (0 : Fin 1) q) := by
  obtain ⟨-, -, -, -, e20, e21, -⟩ := idx_facts1 t
  show V c main_v26 (((cfg1.win 2).blk t).view.emb (ix2 (0 : Fin 1) q)) = _
  refine congrArg (V c main_v26) (funext fun a => Fin.ext ?_)
  match a with
  | ⟨0, _⟩ => show win1_2.index t (0 : Fin 2) * 1 + 1 * 0 = 0; omega
  | ⟨1, _⟩ => show win1_2.index t (1 : Fin 2) * 128 + 1 * q.val = q.val; omega

/-- What point t writes back is its block of the node update of the three operand arrays: at (p, q) of the block both
    sides are max(agg[t · 5000 + p, q] · n[t · 5000 + p] + b[q], 0). -/
theorem flushed1_eq (agg : FVec Ideal Cert.ReferenceIdeal.S50000x128 .f32) (n : FVec Ideal Cert.ReferenceIdeal.S50000 .f32) (b : FVec Ideal Cert.ReferenceIdeal.S128 .f32)
    (ha : V c main_v24 = agg)
    (hn : V c main_v25 = shapeCast S50000x1 n Facts₀.shapeCasts_S50000_S50000x1)
    (hb : V c main_v26 = shapeCast S1x128 b Facts₀.shapeCasts_S128_S1x128)
    (t : Fin cfg1.N) :
    (dat1 V c).flushed 3 t = ((cfg1.win 3).blk t).view.read (Elt Ideal) (finalizeRef agg n b) := by
  show (cfg1.win 3).cut (grid1.coords t) ((dat1 V c).after 3 t) = _
  rw [after1_3]
  unfold out1_3
  rw [View.canon_unit_zero hz2]
  simp only [View.ld_unit_zero (S := S5000x128) hz2, View.ld_unit_zero (S := S5000x1) hz2, View.ld_unit_zero (S := S1x128) hz2]
  obtain ⟨-, -, -, -, -, -, e30, e31⟩ := idx_facts1 t
  funext j
  have hj0 : (j 0).val < 5000 := (j 0).isLt
  have hj1 : (j 1).val < 128 := (j 1).isLt
  have ht : t.val < 10 := t.isLt
  have hr : t.val * 5000 + (j 0).val < 50000 := by omega
  have hL : (win1 3).xinj (grid1.coords t) j = ix2 (⟨(j 0).val, hj0⟩ : Fin 5000) (⟨(j 1).val, hj1⟩ : Fin 128) :=
    funext fun a => match a with | ⟨0, _⟩ => rfl | ⟨1, _⟩ => rfl
  have hR : ((cfg1.win 3).blk t).view.emb j = ix2 (⟨t.val * 5000 + (j 0).val, hr⟩ : Fin 50000) (⟨(j 1).val, hj1⟩ : Fin 128) := by
    funext a; apply Fin.ext
    match a with
    | ⟨0, _⟩ => show win1_3.index t (0 : Fin 2) * 5000 + 1 * (j 0).val = t.val * 5000 + (j 0).val; omega
    | ⟨1, _⟩ => show win1_3.index t (1 : Fin 2) * 128 + 1 * (j 1).val = (j 1).val; omega
  show k1_pay1 (iblk1 V c 0 t) (iblk1 V c 1 t) (iblk1 V c 2 t) ((win1 3).xinj (grid1.coords t) j)
      = finalizeRef agg n b (((cfg1.win 3).blk t).view.emb j)
  rw [hL, hR]
  refine (pay1_apply (iblk1 V c 0 t) (iblk1 V c 1 t) (iblk1 V c 2 t) _ _).trans ?_
  refine Eq.trans ?_ (finalizeRef_apply agg n b _ _).symm
  rw [blk1_0_read V c t ⟨(j 0).val, hj0⟩ ⟨(j 1).val, hj1⟩ hr, blk1_1_read V c t ⟨(j 0).val, hj0⟩ hr, blk1_2_read V c t ⟨(j 1).val, hj1⟩,
    ha, hn, hb, col_apply, row_apply]

/-- An index of the output array lies in point t's block iff each coordinate lies in the block's range on its axis. -/
theorem mem_blk1 (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v27).slice (win1_3.rect t)).set ↔ _
  rw [View.set_slice_whole, Rect.mem_set_unit]
  exact Iff.rfl

/-- Every index of the output array lies in the block of a point that writes back: row r in that of point r / 5000. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hlt : (i 0).val / 5000 < 10 := by omega
  obtain ⟨-, -, -, -, -, -, e30, e31⟩ := idx_facts1 ⟨(i 0).val / 5000, hlt⟩
  have e30' : win1_3.index ⟨(i 0).val / 5000, hlt⟩ (0 : Fin 2) = (i 0).val / 5000 := e30
  refine ⟨⟨(i 0).val / 5000, hlt⟩, flush1_3 _, ?_⟩
  rw [mem_blk1]
  intro a
  match a with
  | ⟨0, _⟩ =>
    show win1_3.index ⟨(i 0).val / 5000, hlt⟩ (0 : Fin 2) * 5000 ≤ (i 0).val
      ∧ (i 0).val < win1_3.index ⟨(i 0).val / 5000, hlt⟩ (0 : Fin 2) * 5000 + 5000
    omega
  | ⟨1, _⟩ =>
    show win1_3.index ⟨(i 0).val / 5000, hlt⟩ (1 : Fin 2) * 128 ≤ (i 1).val
      ∧ (i 1).val < win1_3.index ⟨(i 0).val / 5000, hlt⟩ (1 : Fin 2) * 128 + 128
    omega

end Region1

section Region3
open Cert.KernelIdeal Cert.KernelIdeal.Gen
open Idealize.ShloMosaic.Pipeline (Dat)
open Idealize.ShloMosaic.ValueIdx

/-- The block function at row p, column q of a block is max(x0[p, q] · x1[p, 0] + x2[0, q], 0): the casts to the same
    shape are the identity, the column laid across the columns reads its row's entry, the row laid down the rows reads
    its column's entry, and the splat reads its scalar. -/
theorem pay3_apply (x0 : Vec Ideal Cert.KernelIdeal.S5000x128 .f32) (x1 : Vec Ideal Cert.KernelIdeal.S5000x1 .f32)
    (x2 : Vec Ideal Cert.KernelIdeal.S1x128 .f32) (p : Fin 5000) (q : Fin 128) :
    k3_pay1 x0 x1 x2 (ix2 p q)
      = max (x0 (ix2 p q) * x1 (ix2 p (0 : Fin 1)) + x2 (ix2 (0 : Fin 1) q)) (Scalar.ofBits (F := Ideal) .f32 0x00000000#32) := by
  have e1 : broadcastTo S5000x128 (shapeCast S5000x1 x1 shapeCasts_S5000x1_S5000x1) broadcasts_S5000x1_S5000x128 (ix2 p q)
      = x1 (ix2 p (0 : Fin 1)) := by
    refine (broadcastTo_apply _ broadcasts_S5000x1_S5000x128 (ix2 p q) (ix2 p (0 : Fin 1)) ?_).trans ?_
    · intro a
      match a with
      | ⟨0, _⟩ => show p.val = if (5000 : Nat) = 1 then 0 else p.val; rw [if_neg (by decide)]
      | ⟨1, _⟩ => show 0 = if (1 : Nat) = 1 then 0 else q.val; rw [if_pos rfl]
    · rw [shapeCast_self]
  have e2 : broadcastTo S5000x128 (shapeCast S1x128 x2 shapeCasts_S1x128_S1x128) broadcasts_S1x128_S5000x128 (ix2 p q)
      = x2 (ix2 (0 : Fin 1) q) := by
    refine (broadcastTo_apply _ broadcasts_S1x128_S5000x128 (ix2 p q) (ix2 (0 : Fin 1) q) ?_).trans ?_
    · intro a
      match a with
      | ⟨0, _⟩ => show 0 = if (1 : Nat) = 1 then 0 else p.val; rw [if_pos rfl]
      | ⟨1, _⟩ => show q.val = if (128 : Nat) = 1 then 0 else q.val; rw [if_neg (by decide)]
    · rw [shapeCast_self]
  unfold k3_pay1
  show max (shapeCast S5000x128 x0 shapeCasts_S5000x128_S5000x128 (ix2 p q)
        * broadcastTo S5000x128 (shapeCast S5000x1 x1 shapeCasts_S5000x1_S5000x1) broadcasts_S5000x1_S5000x128 (ix2 p q)
      + broadcastTo S5000x128 (shapeCast S1x128 x2 shapeCasts_S1x128_S1x128) broadcasts_S1x128_S5000x128 (ix2 p q))
      (Scalar.ofBits (F := Ideal) .f32 0x00000000#32) = _
  rw [e1, e2, shapeCast_self]

/-- The block index maps at each of the ten grid points: for the aggregate, the factor column and the output the block
    index is the point on axis 0 and zero on axis 1; for the bias row it is zero on both. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b)) (c : Dev nD)

/-- The aggregate's block at point t, read at (p, q), is the array at row t · 5000 + p, column q: a block's coordinate
    in the array is the block index times the block's size plus the coordinate inside the block. -/
theorem blk3_0_read (t : Fin cfg3.N) (p : Fin 5000) (q : Fin 128) (hr : t.val * 5000 + p.val < 50000) :
    iblk3 V c 0 t (ix2 p q) = V c main_v39 (ix2 (⟨t.val * 5000 + p.val, hr⟩ : Fin 50000) q) := by
  obtain ⟨e00, e01, -⟩ := idx_facts3 t
  show V c main_v39 (((cfg3.win 0).blk t).view.emb (ix2 p q)) = _
  refine congrArg (V c main_v39) (funext fun a => Fin.ext ?_)
  match a with
  | ⟨0, _⟩ => show win3_0.index t (0 : Fin 2) * 5000 + 1 * p.val = t.val * 5000 + p.val; omega
  | ⟨1, _⟩ => show win3_0.index t (1 : Fin 2) * 128 + 1 * q.val = q.val; omega

/-- The factor column's block at point t, read at (p, 0), is the column at row t · 5000 + p. -/
theorem blk3_1_read (t : Fin cfg3.N) (p : Fin 5000) (hr : t.val * 5000 + p.val < 50000) :
    iblk3 V c 1 t (ix2 p (0 : Fin 1)) = V c main_v40 (ix2 (⟨t.val * 5000 + p.val, hr⟩ : Fin 50000) (0 : Fin 1)) := by
  obtain ⟨-, -, e10, e11, -⟩ := idx_facts3 t
  show V c main_v40 (((cfg3.win 1).blk t).view.emb (ix2 p (0 : Fin 1))) = _
  refine congrArg (V c main_v40) (funext fun a => Fin.ext ?_)
  match a with
  | ⟨0, _⟩ => show win3_1.index t (0 : Fin 2) * 5000 + 1 * p.val = t.val * 5000 + p.val; omega
  | ⟨1, _⟩ => show win3_1.index t (1 : Fin 2) * 1 + 1 * 0 = 0; omega

/-- The bias row's block, the whole row at every point, read at (0, q), is the row at column q. -/
theorem blk3_2_read (t : Fin cfg3.N) (q : Fin 128) :
    iblk3 V c 2 t (ix2 (0 : Fin 1) q) = V c main_v41 (ix2 (0 : Fin 1) q) := by
  obtain ⟨-, -, -, -, e20, e21, -⟩ := idx_facts3 t
  show V c main_v41 (((cfg3.win 2).blk t).view.emb (ix2 (0 : Fin 1) q)) = _
  refine congrArg (V c main_v41) (funext fun a => Fin.ext ?_)
  match a with
  | ⟨0, _⟩ => show win3_2.index t (0 : Fin 2) * 1 + 1 * 0 = 0; omega
  | ⟨1, _⟩ => show win3_2.index t (1 : Fin 2) * 128 + 1 * q.val = q.val; omega

/-- What point t writes back is its block of the node update of the three operand arrays: at (p, q) of the block both
    sides are max(agg[t · 5000 + p, q] · n[t · 5000 + p] + b[q], 0). -/
theorem flushed3_eq (agg : FVec Ideal Cert.ReferenceIdeal.S50000x128 .f32) (n : FVec Ideal Cert.ReferenceIdeal.S50000 .f32) (b : FVec Ideal Cert.ReferenceIdeal.S128 .f32)
    (ha : V c main_v39 = agg)
    (hn : V c main_v40 = shapeCast S50000x1 n Facts₀.shapeCasts_S50000_S50000x1)
    (hb : V c main_v41 = shapeCast S1x128 b Facts₀.shapeCasts_S128_S1x128)
    (t : Fin cfg3.N) :
    (dat3 V c).flushed 3 t = ((cfg3.win 3).blk t).view.read (Elt Ideal) (finalizeRef agg n b) := by
  show (cfg3.win 3).cut (grid3.coords t) ((dat3 V c).after 3 t) = _
  rw [after3_3]
  unfold out3_3
  rw [View.canon_unit_zero hz2]
  simp only [View.ld_unit_zero (S := S5000x128) hz2, View.ld_unit_zero (S := S5000x1) hz2, View.ld_unit_zero (S := S1x128) hz2]
  obtain ⟨-, -, -, -, -, -, e30, e31⟩ := idx_facts3 t
  funext j
  have hj0 : (j 0).val < 5000 := (j 0).isLt
  have hj1 : (j 1).val < 128 := (j 1).isLt
  have ht : t.val < 10 := t.isLt
  have hr : t.val * 5000 + (j 0).val < 50000 := by omega
  have hL : (win3 3).xinj (grid3.coords t) j = ix2 (⟨(j 0).val, hj0⟩ : Fin 5000) (⟨(j 1).val, hj1⟩ : Fin 128) :=
    funext fun a => match a with | ⟨0, _⟩ => rfl | ⟨1, _⟩ => rfl
  have hR : ((cfg3.win 3).blk t).view.emb j = ix2 (⟨t.val * 5000 + (j 0).val, hr⟩ : Fin 50000) (⟨(j 1).val, hj1⟩ : Fin 128) := by
    funext a; apply Fin.ext
    match a with
    | ⟨0, _⟩ => show win3_3.index t (0 : Fin 2) * 5000 + 1 * (j 0).val = t.val * 5000 + (j 0).val; omega
    | ⟨1, _⟩ => show win3_3.index t (1 : Fin 2) * 128 + 1 * (j 1).val = (j 1).val; omega
  show k3_pay1 (iblk3 V c 0 t) (iblk3 V c 1 t) (iblk3 V c 2 t) ((win3 3).xinj (grid3.coords t) j)
      = finalizeRef agg n b (((cfg3.win 3).blk t).view.emb j)
  rw [hL, hR]
  refine (pay3_apply (iblk3 V c 0 t) (iblk3 V c 1 t) (iblk3 V c 2 t) _ _).trans ?_
  refine Eq.trans ?_ (finalizeRef_apply agg n b _ _).symm
  rw [blk3_0_read V c t ⟨(j 0).val, hj0⟩ ⟨(j 1).val, hj1⟩ hr, blk3_1_read V c t ⟨(j 0).val, hj0⟩ hr, blk3_2_read V c t ⟨(j 1).val, hj1⟩,
    ha, hn, hb, col_apply, row_apply]

/-- An index of the output array lies in point t's block iff each coordinate lies in the block's range on its axis. -/
theorem mem_blk3 (t : Fin cfg3.N) (i : S50000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v42).slice (win3_3.rect t)).set ↔ _
  rw [View.set_slice_whole, Rect.mem_set_unit]
  exact Iff.rfl

/-- Every index of the output array lies in the block of a point that writes back: row r in that of point r / 5000. -/
theorem cover3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hlt : (i 0).val / 5000 < 10 := by omega
  obtain ⟨-, -, -, -, -, -, e30, e31⟩ := idx_facts3 ⟨(i 0).val / 5000, hlt⟩
  have e30' : win3_3.index ⟨(i 0).val / 5000, hlt⟩ (0 : Fin 2) = (i 0).val / 5000 := e30
  refine ⟨⟨(i 0).val / 5000, hlt⟩, flush3_3 _, ?_⟩
  rw [mem_blk3]
  intro a
  match a with
  | ⟨0, _⟩ =>
    show win3_3.index ⟨(i 0).val / 5000, hlt⟩ (0 : Fin 2) * 5000 ≤ (i 0).val
      ∧ (i 0).val < win3_3.index ⟨(i 0).val / 5000, hlt⟩ (0 : Fin 2) * 5000 + 5000
    omega
  | ⟨1, _⟩ =>
    show win3_3.index ⟨(i 0).val / 5000, hlt⟩ (1 : Fin 2) * 128 ≤ (i 1).val
      ∧ (i 1).val < win3_3.index ⟨(i 0).val / 5000, hlt⟩ (1 : Fin 2) * 128 + 128
    omega

end Region3

theorem finalize1 (V : (c : Dev Cert.KernelIdeal.nD) → (b : Ref Cert.KernelIdeal.sig .tc) → Buf (Elt Ideal) ((c : Thread Cert.KernelIdeal.nD Cert.KernelIdeal.τ).loc b)) (c : Dev Cert.KernelIdeal.nD)
    (agg : FVec Ideal Cert.ReferenceIdeal.S50000x128 .f32) (n : FVec Ideal Cert.ReferenceIdeal.S50000 .f32) (b : FVec Ideal Cert.ReferenceIdeal.S128 .f32)
    (ha : V c Cert.KernelIdeal.main_v24 = agg)
    (hn : V c Cert.KernelIdeal.main_v25 = shapeCast Cert.KernelIdeal.S50000x1 n Cert.KernelIdeal.Facts₀.shapeCasts_S50000_S50000x1)
    (hb : V c Cert.KernelIdeal.main_v26 = shapeCast Cert.KernelIdeal.S1x128 b Cert.KernelIdeal.Facts₀.shapeCasts_S128_S1x128) :
    (Cert.KernelIdeal.Gen.dat1 V c).arrAt 3 Cert.KernelIdeal.cfg1.N = finalizeRef agg n b := by
  exact (Cert.KernelIdeal.Gen.dat1 V c).arrAt_eq_of_cover 3 (finalizeRef agg n b)
    (fun t _ => flushed1_eq V c agg n b ha hn hb t) cover1

theorem finalize3 (V : (c : Dev Cert.KernelIdeal.nD) → (b : Ref Cert.KernelIdeal.sig .tc) → Buf (Elt Ideal) ((c : Thread Cert.KernelIdeal.nD Cert.KernelIdeal.τ).loc b)) (c : Dev Cert.KernelIdeal.nD)
    (agg : FVec Ideal Cert.ReferenceIdeal.S50000x128 .f32) (n : FVec Ideal Cert.ReferenceIdeal.S50000 .f32) (b : FVec Ideal Cert.ReferenceIdeal.S128 .f32)
    (ha : V c Cert.KernelIdeal.main_v39 = agg)
    (hn : V c Cert.KernelIdeal.main_v40 = shapeCast Cert.KernelIdeal.S50000x1 n Cert.KernelIdeal.Facts₀.shapeCasts_S50000_S50000x1)
    (hb : V c Cert.KernelIdeal.main_v41 = shapeCast Cert.KernelIdeal.S1x128 b Cert.KernelIdeal.Facts₀.shapeCasts_S128_S1x128) :
    (Cert.KernelIdeal.Gen.dat3 V c).arrAt 3 Cert.KernelIdeal.cfg3.N = finalizeRef agg n b := by
  exact (Cert.KernelIdeal.Gen.dat3 V c).arrAt_eq_of_cover 3 (finalizeRef agg n b)
    (fun t _ => flushed3_eq V c agg n b ha hn hb t) cover3

end Cert.Bridge

end
-- ==== Proof.EdgeDot.lean ====
/-
  The two per-edge dot-product stretches, each as one whole-array equation: after all of its grid points have written
  back, the output column of the row-sum kernel holds, at edge e, the sum over the 128 lanes k of hu[e, k] · hv[e, k] —
  the same column the host's multiply, add-reduction over the lane axis and broadcast to a column produce.

  Each side is first read at one index. The kernel's block result at (p, 0) is the lane sum of the entrywise product of
  its two loaded blocks at row p (the add-reduction into a zero accumulator is the plain finite sum; the cast of a vector
  of 8000 entries to an 8000 × 1 column reads entry p at (p, 0)). The host's column at (e, 0) is the initial value zero
  plus the same finite sum at row e. A block of 8000 rows at grid point t sits in its array at rows t · 8000 + p, so what
  point t writes back is block t of the host's column, and since row r lies in the block of point r / 8000 the blocks
  cover the array.
-/
import proofs.«178768_j4733053960250_1_alg».proof.ReferenceIdeal
import proofs.«178768_j4733053960250_1_alg».proof.Proof.Gen.ReferenceIdeal
import proofs.«178768_j4733053960250_1_alg».proof.Proof.Gen.KernelIdeal.Frame
import proofs.«178768_j4733053960250_1_alg».proof.Proof.RefOps
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384
set_option Elab.async false

noncomputable section

open Idealize.ShloMosaic Idealize.ShloMosaic.TcCoe Idealize.SL.Sem
open Idealize.ShloMosaic.ValueIdx

namespace Cert.Bridge

/-- The offset vector (0, 0) is the constant zero function. -/
theorem hz00 : (![0, 0] : Fin 2 → Nat) = fun _ => 0 := funext fun a => by fin_cases a <;> rfl

/-! ## The 200000-edge stretch: 25 grid points of 8000 rows -/

/-- The block result at (p, 0): the cast to a column reads the reduced vector at p, the add-reduction over the lane axis
    into zero is the finite sum over k, and the product is entrywise. -/
theorem pay4_apply (x0 x1 : Vec Ideal Cert.KernelIdeal.S8000x128 .f32) (p : Fin 8000) (q : Fin 1) :
    Cert.KernelIdeal.Gen.k4_pay1 (F := Ideal) x0 x1 (ix2 p q) = ∑ k : Fin 128, x0 (ix2 p k) * x1 (ix2 p k) := by
  unfold Cert.KernelIdeal.Gen.k4_pay1
  refine (shapeCast_apply _ _ (ix2 p q) (ix1 p) ?_).trans ?_
  · rw [Shape.rowMajor_val_one, Shape.rowMajor_val_two]
    show p.val = p.val * 1 + q.val
    omega
  refine (Ideal.multiReduction_add_single _ _ _ _ _ _).trans ?_
  refine Finset.sum_congr rfl fun k _ => ?_
  rw [shapeCast_self, shapeCast_self]
  have hk : Cert.KernelIdeal.Gen.reduces_S8000x128_S8000.lift (ix1 p) k = ix2 p k :=
    funext fun a => Fin.ext (by match a with | ⟨0, _⟩ => rfl | ⟨1, _⟩ => rfl)
  rw [hk]
  rfl

/-- The host's column at (e, 0): the broadcast reads the reduced vector at e, the add-reduction is the initial value
    plus the finite sum over k, the initial value is zero, and the product is entrywise. -/
theorem edgeDotRefPos_apply (hu hv : FVec Ideal Cert.ReferenceIdeal.S200000x128 .f32) (e : Fin 200000) (q : Fin 1) :
    edgeDotRefPos hu hv (ix2 e q) = ∑ k : Fin 128, hu (ix2 e k) * hv (ix2 e k) := by
  unfold edgeDotRefPos
  refine (broadcastInDim_apply _ _ _ (ix2 e q) (ix1 e) (fun a => match a with
    | ⟨0, _⟩ => by show e.val = if (200000 : Nat) = 1 then 0 else e.val; rw [if_neg (by decide)])).trans ?_
  rw [hostReduceAdd_apply]
  rw [Ideal.hostReduceAdd_single Cert.ReferenceIdeal.Facts₀.reducesTo_S200000x128_S200000_d1 (by decide)]
  show Ideal.ofBits .f32 0x00000000#32 + _ = _
  rw [Ideal.ofBits_zero_f32, zero_add]
  refine Finset.sum_congr rfl fun k _ => ?_
  have hk : ∀ h : Cert.ReferenceIdeal.S200000x128.Reduces [1] Cert.ReferenceIdeal.S200000, h.lift (ix1 e) k = ix2 e k :=
    fun h => funext fun a => Fin.ext (by match a with | ⟨0, _⟩ => rfl | ⟨1, _⟩ => rfl)
  rw [hk]
  rfl

section R4
open Cert.KernelIdeal Cert.KernelIdeal.Gen

/-- The index maps, decided over the grid: at point t every window's block index is t on the row axis and 0 on the
    other axis. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- Every grid point writes its output block back. -/
theorem flush4_2 : ∀ t : Fin cfg4.N, (cfg4.win 2).flush t = true :=
  (by decide +kernel : ∀ t : Fin grid4.N, _)

theorem t4_lt (t : Fin cfg4.N) : t.val < 25 := lt_of_lt_of_eq t.isLt N_4

variable (V : (c : Dev Cert.KernelIdeal.nD) → (b : Ref Cert.KernelIdeal.sig .tc) → Buf (Elt Ideal) ((c : Thread Cert.KernelIdeal.nD Cert.KernelIdeal.τ).loc b)) (c : Dev Cert.KernelIdeal.nD)

/-- The first row table's block at point t, at (p, k), is the table at row t · 8000 + p, lane k. -/
theorem blk4_0_read (t : Fin cfg4.N) (p : Fin 8000) (k : Fin 128) :
    iblk4 V c 0 t (ix2 p k : S8000x128.Idx) = V c main_v49 (ix2 (⟨t.val * 8000 + p.val, by have := t4_lt t; omega⟩ : Fin 200000) k : S200000x128.Idx) := by
  unfold iblk4
  show V c main_v49 (((cfg4.win 0).blk t).view.emb (ix2 p k : S8000x128.Idx)) = _
  refine congrArg (V c main_v49) ?_
  obtain ⟨e0, e1, -⟩ := idx_facts4 t
  funext a; apply Fin.ext
  match a with
  | ⟨0, _⟩ => show win4_0.index t (0 : Fin 2) * 8000 + 1 * p.val = t.val * 8000 + p.val; omega
  | ⟨1, _⟩ => show win4_0.index t (1 : Fin 2) * 128 + 1 * k.val = k.val; omega

/-- The second row table's block at point t, at (p, k), is the table at row t · 8000 + p, lane k. -/
theorem blk4_1_read (t : Fin cfg4.N) (p : Fin 8000) (k : Fin 128) :
    iblk4 V c 1 t (ix2 p k : S8000x128.Idx) = V c main_v56 (ix2 (⟨t.val * 8000 + p.val, by have := t4_lt t; omega⟩ : Fin 200000) k : S200000x128.Idx) := by
  unfold iblk4
  show V c main_v56 (((cfg4.win 1).blk t).view.emb (ix2 p k : S8000x128.Idx)) = _
  refine congrArg (V c main_v56) ?_
  obtain ⟨-, -, e0, e1, -⟩ := idx_facts4 t
  funext a; apply Fin.ext
  match a with
  | ⟨0, _⟩ => show win4_1.index t (0 : Fin 2) * 8000 + 1 * p.val = t.val * 8000 + p.val; omega
  | ⟨1, _⟩ => show win4_1.index t (1 : Fin 2) * 128 + 1 * k.val = k.val; omega

/-- The output block's entry (p, 0) at point t sits in the column at row t · 8000 + p. -/
theorem blk4_2_emb (t : Fin cfg4.N) (p : Fin 8000) (q : Fin 1) :
    ((cfg4.win 2).blk t).view.emb (ix2 p q : S8000x1.Idx) = (ix2 (⟨t.val * 8000 + p.val, by have := t4_lt t; omega⟩ : Fin 200000) q : S200000x1.Idx) := by
  obtain ⟨-, -, -, -, e0, e1⟩ := idx_facts4 t
  funext a; apply Fin.ext
  match a with
  | ⟨0, _⟩ => show win4_2.index t (0 : Fin 2) * 8000 + 1 * p.val = t.val * 8000 + p.val; omega
  | ⟨1, _⟩ => show win4_2.index t (1 : Fin 2) * 1 + 1 * q.val = q.val; omega

/-- One whole-block store of a payload computed from two whole-block loads leaves that payload of the two blocks. -/
theorem out4_2_eq (x0 x1 : Vec Ideal S8000x128 .f32) : out4_2 (F := Ideal) x0 x1 = k4_pay1 (F := Ideal) x0 x1 := by
  unfold out4_2
  rw [View.canon_unit_zero hz00]
  simp only [View.ld_unit_zero (S := S8000x128) hz00]

/-- The output window is uncut: what is written back from a staging buffer holding X is X. -/
theorem cut4_2_apply (t : Fin cfg4.N) (X : Vec Ideal S8000x1 .f32) (p : Fin 8000) (q : Fin 1) :
    (cfg4.win 2).cut (grid4.coords t) X (ix2 p q : S8000x1.Idx) = X (ix2 p q) := rfl

/-- Block t of a column G, at (p, 0), is G at row t · 8000 + p. -/
theorem read4_2_apply (t : Fin cfg4.N) (G : Vec Ideal S200000x1 .f32) (p : Fin 8000) (q : Fin 1) :
    ((cfg4.win 2).blk t).view.read (Elt Ideal) G (ix2 p q : S8000x1.Idx)
      = G (ix2 (⟨t.val * 8000 + p.val, by have := t4_lt t; omega⟩ : Fin 200000) q : S200000x1.Idx) := by
  show G (((cfg4.win 2).blk t).view.emb (ix2 p q : S8000x1.Idx)) = _
  rw [blk4_2_emb t p q]

/-- What point t writes back is block t of the host's column: both sides at (p, 0) are the lane sum of the products of
    the two tables at row t · 8000 + p. -/
theorem flushed4_eq (hu hv : FVec Ideal Cert.ReferenceIdeal.S200000x128 .f32)
    (h0 : V c main_v49 = hu) (h1 : V c main_v56 = hv) (t : Fin cfg4.N) :
    (dat4 V c).flushed 2 t = ((cfg4.win 2).blk t).view.read (Elt Ideal) (edgeDotRefPos hu hv) := by
  show (cfg4.win 2).cut (grid4.coords t) ((dat4 V c).after 2 t) = _
  rw [after4_2, out4_2_eq]
  funext j
  obtain ⟨p, q, rfl⟩ : ∃ (p : Fin 8000) (q : Fin 1), j = (ix2 p q : S8000x1.Idx) := ⟨j 0, j 1, eq_ix2 j⟩
  refine (cut4_2_apply t _ p q).trans ?_
  refine Eq.trans ?_ (read4_2_apply t (edgeDotRefPos hu hv) p q).symm
  refine (pay4_apply (iblk4 V c 0 t) (iblk4 V c 1 t) p q).trans ?_
  refine Eq.trans ?_ (edgeDotRefPos_apply hu hv _ q).symm
  refine Finset.sum_congr rfl fun k _ => ?_
  rw [← h0, ← h1]
  exact congrArg₂ (· * ·) (blk4_0_read V c t p k) (blk4_1_read V c t p k)

/-- An index of the column is in point t's block iff each coordinate is in the block's range on its axis. -/
theorem mem_blk4 (t : Fin cfg4.N) (i : S200000x1.Idx) :
    i ∈ ((cfg4.win 2).blk t).view.set ↔ ∀ a : Fin 2, win4_2.index t a * S8000x1.size a ≤ (i a).val ∧ (i a).val < win4_2.index t a * S8000x1.size a + S8000x1.size a := by
  show i ∈ ((View.whole main_v57).slice (win4_2.rect t)).set ↔ _
  rw [View.set_slice_whole, Rect.mem_set_unit]
  exact Iff.rfl

/-- Row r of the column lies in the block of point r / 8000. -/
theorem cover4 (i : S200000x1.Idx) : ∃ t : Fin cfg4.N, (cfg4.win 2).flush t = true ∧ i ∈ ((cfg4.win 2).blk t).view.set := by
  have hi0 : (i 0).val < 200000 := (i 0).isLt
  have hi1 : (i 1).val < 1 := (i 1).isLt
  have ht : (i 0).val / 8000 < cfg4.N := by rw [show cfg4.N = 25 from N_4]; omega
  refine ⟨⟨(i 0).val / 8000, ht⟩, flush4_2 _, ?_⟩
  rw [mem_blk4]
  obtain ⟨-, -, -, -, e0, e1⟩ := idx_facts4 ⟨(i 0).val / 8000, ht⟩
  intro a
  match a with
  | ⟨0, _⟩ => show win4_2.index _ (0 : Fin 2) * 8000 ≤ (i 0).val ∧ (i 0).val < win4_2.index _ (0 : Fin 2) * 8000 + 8000; rw [e0]; show (i 0).val / 8000 * 8000 ≤ (i 0).val ∧ (i 0).val < (i 0).val / 8000 * 8000 + 8000; omega
  | ⟨1, _⟩ => show win4_2.index _ (1 : Fin 2) * 1 ≤ (i 1).val ∧ (i 1).val < win4_2.index _ (1 : Fin 2) * 1 + 1; rw [e1]; omega

end R4

theorem edgeDot4 (V : (c : Dev Cert.KernelIdeal.nD) → (b : Ref Cert.KernelIdeal.sig .tc) → Buf (Elt Ideal) ((c : Thread Cert.KernelIdeal.nD Cert.KernelIdeal.τ).loc b)) (c : Dev Cert.KernelIdeal.nD)
    (hu hv : FVec Ideal Cert.ReferenceIdeal.S200000x128 .f32)
    (h0 : V c Cert.KernelIdeal.main_v49 = hu) (h1 : V c Cert.KernelIdeal.main_v56 = hv) :
    (Cert.KernelIdeal.Gen.dat4 V c).arrAt 2 Cert.KernelIdeal.cfg4.N = edgeDotRefPos hu hv :=
  (Cert.KernelIdeal.Gen.dat4 V c).arrAt_eq_of_cover 2 (edgeDotRefPos hu hv) (fun t _ => flushed4_eq V c hu hv h0 h1 t) cover4

/-! ## The 1000000-edge stretch: 125 grid points of 8000 rows -/

/-- The block result at (p, 0): the cast to a column reads the reduced vector at p, the add-reduction over the lane axis
    into zero is the finite sum over k, and the product is entrywise. -/
theorem pay5_apply (x0 x1 : Vec Ideal Cert.KernelIdeal.S8000x128 .f32) (p : Fin 8000) (q : Fin 1) :
    Cert.KernelIdeal.Gen.k5_pay1 (F := Ideal) x0 x1 (ix2 p q) = ∑ k : Fin 128, x0 (ix2 p k) * x1 (ix2 p k) := by
  unfold Cert.KernelIdeal.Gen.k5_pay1
  refine (shapeCast_apply _ _ (ix2 p q) (ix1 p) ?_).trans ?_
  · rw [Shape.rowMajor_val_one, Shape.rowMajor_val_two]
    show p.val = p.val * 1 + q.val
    omega
  refine (Ideal.multiReduction_add_single _ _ _ _ _ _).trans ?_
  refine Finset.sum_congr rfl fun k _ => ?_
  rw [shapeCast_self, shapeCast_self]
  have hk : Cert.KernelIdeal.Gen.reduces_S8000x128_S8000.lift (ix1 p) k = ix2 p k :=
    funext fun a => Fin.ext (by match a with | ⟨0, _⟩ => rfl | ⟨1, _⟩ => rfl)
  rw [hk]
  rfl

/-- The host's column at (e, 0): the broadcast reads the reduced vector at e, the add-reduction is the initial value
    plus the finite sum over k, the initial value is zero, and the product is entrywise. -/
theorem edgeDotRefNeg_apply (hu hv : FVec Ideal Cert.ReferenceIdeal.S1000000x128 .f32) (e : Fin 1000000) (q : Fin 1) :
    edgeDotRefNeg hu hv (ix2 e q) = ∑ k : Fin 128, hu (ix2 e k) * hv (ix2 e k) := by
  unfold edgeDotRefNeg
  refine (broadcastInDim_apply _ _ _ (ix2 e q) (ix1 e) (fun a => match a with
    | ⟨0, _⟩ => by show e.val = if (1000000 : Nat) = 1 then 0 else e.val; rw [if_neg (by decide)])).trans ?_
  rw [hostReduceAdd_apply]
  rw [Ideal.hostReduceAdd_single Cert.ReferenceIdeal.Facts₀.reducesTo_S1000000x128_S1000000_d1 (by decide)]
  show Ideal.ofBits .f32 0x00000000#32 + _ = _
  rw [Ideal.ofBits_zero_f32, zero_add]
  refine Finset.sum_congr rfl fun k _ => ?_
  have hk : ∀ h : Cert.ReferenceIdeal.S1000000x128.Reduces [1] Cert.ReferenceIdeal.S1000000, h.lift (ix1 e) k = ix2 e k :=
    fun h => funext fun a => Fin.ext (by match a with | ⟨0, _⟩ => rfl | ⟨1, _⟩ => rfl)
  rw [hk]
  rfl

section R5
open Cert.KernelIdeal Cert.KernelIdeal.Gen

/-- The index maps, decided over the grid: at point t every window's block index is t on the row axis and 0 on the
    other axis. -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- Every grid point writes its output block back. -/
theorem flush5_2 : ∀ t : Fin cfg5.N, (cfg5.win 2).flush t = true :=
  (by decide +kernel : ∀ t : Fin grid5.N, _)

theorem t5_lt (t : Fin cfg5.N) : t.val < 125 := lt_of_lt_of_eq t.isLt N_5

variable (V : (c : Dev Cert.KernelIdeal.nD) → (b : Ref Cert.KernelIdeal.sig .tc) → Buf (Elt Ideal) ((c : Thread Cert.KernelIdeal.nD Cert.KernelIdeal.τ).loc b)) (c : Dev Cert.KernelIdeal.nD)

/-- The first row table's block at point t, at (p, k), is the table at row t · 8000 + p, lane k. -/
theorem blk5_0_read (t : Fin cfg5.N) (p : Fin 8000) (k : Fin 128) :
    iblk5 V c 0 t (ix2 p k : S8000x128.Idx) = V c main_v64 (ix2 (⟨t.val * 8000 + p.val, by have := t5_lt t; omega⟩ : Fin 1000000) k : S1000000x128.Idx) := by
  unfold iblk5
  show V c main_v64 (((cfg5.win 0).blk t).view.emb (ix2 p k : S8000x128.Idx)) = _
  refine congrArg (V c main_v64) ?_
  obtain ⟨e0, e1, -⟩ := idx_facts5 t
  funext a; apply Fin.ext
  match a with
  | ⟨0, _⟩ => show win5_0.index t (0 : Fin 2) * 8000 + 1 * p.val = t.val * 8000 + p.val; omega
  | ⟨1, _⟩ => show win5_0.index t (1 : Fin 2) * 128 + 1 * k.val = k.val; omega

/-- The second row table's block at point t, at (p, k), is the table at row t · 8000 + p, lane k. -/
theorem blk5_1_read (t : Fin cfg5.N) (p : Fin 8000) (k : Fin 128) :
    iblk5 V c 1 t (ix2 p k : S8000x128.Idx) = V c main_v71 (ix2 (⟨t.val * 8000 + p.val, by have := t5_lt t; omega⟩ : Fin 1000000) k : S1000000x128.Idx) := by
  unfold iblk5
  show V c main_v71 (((cfg5.win 1).blk t).view.emb (ix2 p k : S8000x128.Idx)) = _
  refine congrArg (V c main_v71) ?_
  obtain ⟨-, -, e0, e1, -⟩ := idx_facts5 t
  funext a; apply Fin.ext
  match a with
  | ⟨0, _⟩ => show win5_1.index t (0 : Fin 2) * 8000 + 1 * p.val = t.val * 8000 + p.val; omega
  | ⟨1, _⟩ => show win5_1.index t (1 : Fin 2) * 128 + 1 * k.val = k.val; omega

/-- The output block's entry (p, 0) at point t sits in the column at row t · 8000 + p. -/
theorem blk5_2_emb (t : Fin cfg5.N) (p : Fin 8000) (q : Fin 1) :
    ((cfg5.win 2).blk t).view.emb (ix2 p q : S8000x1.Idx) = (ix2 (⟨t.val * 8000 + p.val, by have := t5_lt t; omega⟩ : Fin 1000000) q : S1000000x1.Idx) := by
  obtain ⟨-, -, -, -, e0, e1⟩ := idx_facts5 t
  funext a; apply Fin.ext
  match a with
  | ⟨0, _⟩ => show win5_2.index t (0 : Fin 2) * 8000 + 1 * p.val = t.val * 8000 + p.val; omega
  | ⟨1, _⟩ => show win5_2.index t (1 : Fin 2) * 1 + 1 * q.val = q.val; omega

/-- One whole-block store of a payload computed from two whole-block loads leaves that payload of the two blocks. -/
theorem out5_2_eq (x0 x1 : Vec Ideal S8000x128 .f32) : out5_2 (F := Ideal) x0 x1 = k5_pay1 (F := Ideal) x0 x1 := by
  unfold out5_2
  rw [View.canon_unit_zero hz00]
  simp only [View.ld_unit_zero (S := S8000x128) hz00]

/-- The output window is uncut: what is written back from a staging buffer holding X is X. -/
theorem cut5_2_apply (t : Fin cfg5.N) (X : Vec Ideal S8000x1 .f32) (p : Fin 8000) (q : Fin 1) :
    (cfg5.win 2).cut (grid5.coords t) X (ix2 p q : S8000x1.Idx) = X (ix2 p q) := rfl

/-- Block t of a column G, at (p, 0), is G at row t · 8000 + p. -/
theorem read5_2_apply (t : Fin cfg5.N) (G : Vec Ideal S1000000x1 .f32) (p : Fin 8000) (q : Fin 1) :
    ((cfg5.win 2).blk t).view.read (Elt Ideal) G (ix2 p q : S8000x1.Idx)
      = G (ix2 (⟨t.val * 8000 + p.val, by have := t5_lt t; omega⟩ : Fin 1000000) q : S1000000x1.Idx) := by
  show G (((cfg5.win 2).blk t).view.emb (ix2 p q : S8000x1.Idx)) = _
  rw [blk5_2_emb t p q]

/-- What point t writes back is block t of the host's column: both sides at (p, 0) are the lane sum of the products of
    the two tables at row t · 8000 + p. -/
theorem flushed5_eq (hu hv : FVec Ideal Cert.ReferenceIdeal.S1000000x128 .f32)
    (h0 : V c main_v64 = hu) (h1 : V c main_v71 = hv) (t : Fin cfg5.N) :
    (dat5 V c).flushed 2 t = ((cfg5.win 2).blk t).view.read (Elt Ideal) (edgeDotRefNeg hu hv) := by
  show (cfg5.win 2).cut (grid5.coords t) ((dat5 V c).after 2 t) = _
  rw [after5_2, out5_2_eq]
  funext j
  obtain ⟨p, q, rfl⟩ : ∃ (p : Fin 8000) (q : Fin 1), j = (ix2 p q : S8000x1.Idx) := ⟨j 0, j 1, eq_ix2 j⟩
  refine (cut5_2_apply t _ p q).trans ?_
  refine Eq.trans ?_ (read5_2_apply t (edgeDotRefNeg hu hv) p q).symm
  refine (pay5_apply (iblk5 V c 0 t) (iblk5 V c 1 t) p q).trans ?_
  refine Eq.trans ?_ (edgeDotRefNeg_apply hu hv _ q).symm
  refine Finset.sum_congr rfl fun k _ => ?_
  rw [← h0, ← h1]
  exact congrArg₂ (· * ·) (blk5_0_read V c t p k) (blk5_1_read V c t p k)

/-- An index of the column is in point t's block iff each coordinate is in the block's range on its axis. -/
theorem mem_blk5 (t : Fin cfg5.N) (i : S1000000x1.Idx) :
    i ∈ ((cfg5.win 2).blk t).view.set ↔ ∀ a : Fin 2, win5_2.index t a * S8000x1.size a ≤ (i a).val ∧ (i a).val < win5_2.index t a * S8000x1.size a + S8000x1.size a := by
  show i ∈ ((View.whole main_v72).slice (win5_2.rect t)).set ↔ _
  rw [View.set_slice_whole, Rect.mem_set_unit]
  exact Iff.rfl

/-- Row r of the column lies in the block of point r / 8000. -/
theorem cover5 (i : S1000000x1.Idx) : ∃ t : Fin cfg5.N, (cfg5.win 2).flush t = true ∧ i ∈ ((cfg5.win 2).blk t).view.set := by
  have hi0 : (i 0).val < 1000000 := (i 0).isLt
  have hi1 : (i 1).val < 1 := (i 1).isLt
  have ht : (i 0).val / 8000 < cfg5.N := by rw [show cfg5.N = 125 from N_5]; omega
  refine ⟨⟨(i 0).val / 8000, ht⟩, flush5_2 _, ?_⟩
  rw [mem_blk5]
  obtain ⟨-, -, -, -, e0, e1⟩ := idx_facts5 ⟨(i 0).val / 8000, ht⟩
  intro a
  match a with
  | ⟨0, _⟩ => show win5_2.index _ (0 : Fin 2) * 8000 ≤ (i 0).val ∧ (i 0).val < win5_2.index _ (0 : Fin 2) * 8000 + 8000; rw [e0]; show (i 0).val / 8000 * 8000 ≤ (i 0).val ∧ (i 0).val < (i 0).val / 8000 * 8000 + 8000; omega
  | ⟨1, _⟩ => show win5_2.index _ (1 : Fin 2) * 1 ≤ (i 1).val ∧ (i 1).val < win5_2.index _ (1 : Fin 2) * 1 + 1; rw [e1]; omega

end R5

theorem edgeDot5 (V : (c : Dev Cert.KernelIdeal.nD) → (b : Ref Cert.KernelIdeal.sig .tc) → Buf (Elt Ideal) ((c : Thread Cert.KernelIdeal.nD Cert.KernelIdeal.τ).loc b)) (c : Dev Cert.KernelIdeal.nD)
    (hu hv : FVec Ideal Cert.ReferenceIdeal.S1000000x128 .f32)
    (h0 : V c Cert.KernelIdeal.main_v64 = hu) (h1 : V c Cert.KernelIdeal.main_v71 = hv) :
    (Cert.KernelIdeal.Gen.dat5 V c).arrAt 2 Cert.KernelIdeal.cfg5.N = edgeDotRefNeg hu hv :=
  (Cert.KernelIdeal.Gen.dat5 V c).arrAt_eq_of_cover 2 (edgeDotRefNeg hu hv) (fun t _ => flushed5_eq V c hu hv h0 h1 t) cover5

end Cert.Bridge

end
-- ==== Proof.Values.lean ====
/-
  What the kernel program's two result arrays hold when it ends: the reference's last stages of the launch arguments.
  The facts run boundary by boundary from the launch: a host stretch maps stages to stages (the stretch lemmas), a
  pallas_call's output array is its kind's function of its operand arrays as the call finds them (the bridge lemmas),
  and a buffer nothing in between writes is carried (the kept lemmas).
-/
import proofs.«178768_j4733053960250_1_alg».proof.Proof.Chain
import proofs.«178768_j4733053960250_1_alg».proof.Proof.Project
import proofs.«178768_j4733053960250_1_alg».proof.Proof.Finalize
import proofs.«178768_j4733053960250_1_alg».proof.Proof.EdgeDot

set_option maxRecDepth 16384
set_option maxHeartbeats 400000

noncomputable section

namespace Cert.KernelIdeal.Chain

open Cert.KernelIdeal Cert.KernelIdeal.Gen
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg) (c : Dev nD)

/-! ## The launch arguments on core `c` -/

abbrev a0 : FArr S50000x128 := m ((c : Thread nD τ).loc main_arg0)
abbrev a1 : IArr S800000 := m ((c : Thread nD τ).loc main_arg1)
abbrev a2 : IArr S800000 := m ((c : Thread nD τ).loc main_arg2)
abbrev a3 : IArr S200000 := m ((c : Thread nD τ).loc main_arg3)
abbrev a4 : IArr S200000 := m ((c : Thread nD τ).loc main_arg4)
abbrev a5 : IArr S1000000 := m ((c : Thread nD τ).loc main_arg5)
abbrev a6 : IArr S1000000 := m ((c : Thread nD τ).loc main_arg6)
abbrev a7 : FArr S128x128 := m ((c : Thread nD τ).loc main_arg7)
abbrev a8 : FArr S128 := m ((c : Thread nD τ).loc main_arg8)
abbrev a9 : FArr S128x128 := m ((c : Thread nD τ).loc main_arg9)
abbrev a10 : FArr S128 := m ((c : Thread nD τ).loc main_arg10)

/-! ## Carrying a buffer across several segments at once -/

theorem W10_from5 (r : Ref sig .tc) (h0 : ∀ w, Pipeline.arrRef spec0 w ≠ r) (h1 : r ∉ w1) (h1' : ∀ w, Pipeline.arrRef spec1 w ≠ r)
    (h2 : r ∉ w2) (h2' : ∀ w, Pipeline.arrRef spec2 w ≠ r) :
    W10 m ρ c (Proc.devRef .tc r) = W5 m ρ c (Proc.devRef .tc r) :=
  (W10_of_ne m ρ c r h2').trans <| (W9_of m ρ c r h2).trans <| (W8_of_ne m ρ c r h1').trans <| (W7_of m ρ c r h1).trans (W6_of_ne m ρ c r h0)

theorem W12_from10 (r : Ref sig .tc) (h3 : r ∉ w3) (h3' : ∀ w, Pipeline.arrRef spec3 w ≠ r) :
    W12 m ρ c (Proc.devRef .tc r) = W10 m ρ c (Proc.devRef .tc r) :=
  (W12_of_ne m ρ c r h3').trans (W11_of m ρ c r h3)

theorem W14_from12 (r : Ref sig .tc) (h4 : r ∉ w4) (h4' : ∀ w, Pipeline.arrRef spec4 w ≠ r) :
    W14 m ρ c (Proc.devRef .tc r) = W12 m ρ c (Proc.devRef .tc r) :=
  (W14_of_ne m ρ c r h4').trans (W13_of m ρ c r h4)

/-! ## From the launch to the first pallas_call: the two degree factors -/

theorem W1_v3 : W1 m ρ c (Proc.devRef .tc main_v3) = val_main_v3 (F := Ideal) (a1 m c) := st0_v3 (W0 m ρ c) (a1 m c) rfl
theorem W1_v6 : W1 m ρ c (Proc.devRef .tc main_v6) = val_main_v6 (F := Ideal) (a2 m c) := st0_v6 (W0 m ρ c) (a2 m c) rfl
theorem W1_cst2 : W1 m ρ c (Proc.devRef .tc main_cst_2) = val_main_cst_2 (F := Ideal) := st0_cst2 (W0 m ρ c)
theorem W2_v7 : W2 m ρ c (Proc.devRef .tc main_v7) = val_main_v7 (F := Ideal) (a1 m c) :=
  st01_v7 (W1 m ρ c) (a1 m c) (W1_cst2 m ρ c) (W1_v3 m ρ c)
theorem W2_v6 : W2 m ρ c (Proc.devRef .tc main_v6) = val_main_v6 (F := Ideal) (a2 m c) :=
  (W2_of m ρ c main_v6 (by decide)).trans (W1_v6 m ρ c)
theorem W3_v9 : W3 m ρ c (Proc.devRef .tc main_v9) = val_main_v9 (F := Ideal) (a1 m c) := st02_v9 (W2 m ρ c) (a1 m c) (W2_v7 m ρ c)
theorem W3_cst4 : W3 m ρ c (Proc.devRef .tc main_cst_4) = val_main_cst_4 (F := Ideal) := st02_cst4 (W2 m ρ c)
theorem W3_v6 : W3 m ρ c (Proc.devRef .tc main_v6) = val_main_v6 (F := Ideal) (a2 m c) :=
  (W3_of m ρ c main_v6 (by decide)).trans (W2_v6 m ρ c)
theorem W4_v10 : W4 m ρ c (Proc.devRef .tc main_v10) = val_main_v10 (F := Ideal) (a2 m c) :=
  st03_v10 (W3 m ρ c) (a2 m c) (W3_cst4 m ρ c) (W3_v6 m ρ c)
theorem W4_v9 : W4 m ρ c (Proc.devRef .tc main_v9) = val_main_v9 (F := Ideal) (a1 m c) :=
  (W4_of m ρ c main_v9 (by decide)).trans (W3_v9 m ρ c)
theorem W5_v12 : W5 m ρ c (Proc.devRef .tc main_v12) = val_main_v12 (F := Ideal) (a2 m c) := st04_v12 (W4 m ρ c) (a2 m c) (W4_v10 m ρ c)
theorem W5_v13 : W5 m ρ c (Proc.devRef .tc main_v13) = shapeCast S50000x1 (val_main_v9 (F := Ideal) (a1 m c)) Facts₀.shapeCasts_S50000_S50000x1 :=
  st04_v13 (W4 m ρ c) (val_main_v9 (F := Ideal) (a1 m c)) (W4_v9 m ρ c)
theorem W5_v9 : W5 m ρ c (Proc.devRef .tc main_v9) = val_main_v9 (F := Ideal) (a1 m c) :=
  (W5_of m ρ c main_v9 (by decide)).trans (W4_v9 m ρ c)

/-! ## The first layer -/

/-- The first projection's output array. -/
theorem W6_v14 : W6 m ρ c (Proc.devRef .tc main_v14) = val_main_v16 (F := Ideal) (a0 m c) (a1 m c) (a7 m c) :=
  (W6_arr m ρ c 3).trans <|
    (Cert.Bridge.project0 (V5 m ρ) c (a0 m c) (val_main_v9 (F := Ideal) (a1 m c)) (a7 m c)
      (W5_launch m ρ c main_arg0 (by decide) (by decide) (by decide) (by decide) (by decide)) (W5_v13 m ρ c) (W5_launch m ρ c main_arg7 (by decide) (by decide) (by decide) (by decide) (by decide))).trans
    (proj_stage1 (a0 m c) (a1 m c) (a7 m c))

theorem W6_a1 : W6 m ρ c (Proc.devRef .tc main_arg1) = a1 m c :=
  (W6_of_ne m ρ c main_arg1 (by decide)).trans (W5_launch m ρ c main_arg1 (by decide) (by decide) (by decide) (by decide) (by decide))
theorem W6_a2 : W6 m ρ c (Proc.devRef .tc main_arg2) = a2 m c :=
  (W6_of_ne m ρ c main_arg2 (by decide)).trans (W5_launch m ρ c main_arg2 (by decide) (by decide) (by decide) (by decide) (by decide))
theorem W6_a8 : W6 m ρ c (Proc.devRef .tc main_arg8) = a8 m c :=
  (W6_of_ne m ρ c main_arg8 (by decide)).trans (W5_launch m ρ c main_arg8 (by decide) (by decide) (by decide) (by decide) (by decide))
theorem W6_v12 : W6 m ρ c (Proc.devRef .tc main_v12) = val_main_v12 (F := Ideal) (a2 m c) :=
  (W6_of_ne m ρ c main_v12 (by decide)).trans (W5_v12 m ρ c)

theorem W7_v24 : W7 m ρ c (Proc.devRef .tc main_v24) = val_main_v26 (F := Ideal) (a0 m c) (a1 m c) (a2 m c) (a7 m c) :=
  st1_v24 (W6 m ρ c) (a0 m c) (a1 m c) (a2 m c) (a7 m c) (W6_v14 m ρ c) (W6_a1 m ρ c) (W6_a2 m ρ c)
theorem W7_v25 : W7 m ρ c (Proc.devRef .tc main_v25) = shapeCast S50000x1 (val_main_v12 (F := Ideal) (a2 m c)) Facts₀.shapeCasts_S50000_S50000x1 :=
  st1_v25 (W6 m ρ c) (val_main_v12 (F := Ideal) (a2 m c)) (W6_v12 m ρ c)
theorem W7_v26 : W7 m ρ c (Proc.devRef .tc main_v26) = shapeCast S1x128 (a8 m c) Facts₀.shapeCasts_S128_S1x128 :=
  st1_v26 (W6 m ρ c) (a8 m c) (W6_a8 m ρ c)

/-- The first layer's node features. -/
theorem W8_v27 : W8 m ρ c (Proc.devRef .tc main_v27) = val_main_v33 (F := Ideal) (a0 m c) (a1 m c) (a2 m c) (a7 m c) (a8 m c) :=
  (W8_arr m ρ c 3).trans <|
    (Cert.Bridge.finalize1 (V7 m ρ) c (val_main_v26 (F := Ideal) (a0 m c) (a1 m c) (a2 m c) (a7 m c)) (val_main_v12 (F := Ideal) (a2 m c)) (a8 m c)
      (W7_v24 m ρ c) (W7_v25 m ρ c) (W7_v26 m ρ c)).trans
    (fin_stage1 (a0 m c) (a1 m c) (a2 m c) (a7 m c) (a8 m c))

/-! ## The second layer -/

theorem W8_v9 : W8 m ρ c (Proc.devRef .tc main_v9) = val_main_v9 (F := Ideal) (a1 m c) :=
  (W8_of_ne m ρ c main_v9 (by decide)).trans <| (W7_of m ρ c main_v9 (by decide)).trans <| (W6_of_ne m ρ c main_v9 (by decide)).trans (W5_v9 m ρ c)
theorem W9_v28 : W9 m ρ c (Proc.devRef .tc main_v28) = shapeCast S50000x1 (val_main_v9 (F := Ideal) (a1 m c)) Facts₀.shapeCasts_S50000_S50000x1 :=
  st2_v28 (W8 m ρ c) (val_main_v9 (F := Ideal) (a1 m c)) (W8_v9 m ρ c)
theorem W9_v27 : W9 m ρ c (Proc.devRef .tc main_v27) = val_main_v33 (F := Ideal) (a0 m c) (a1 m c) (a2 m c) (a7 m c) (a8 m c) :=
  (W9_of m ρ c main_v27 (by decide)).trans (W8_v27 m ρ c)
theorem W9_a9 : W9 m ρ c (Proc.devRef .tc main_arg9) = a9 m c :=
  (W9_of m ρ c main_arg9 (by decide)).trans <| (W8_of_ne m ρ c main_arg9 (by decide)).trans <| (W7_of m ρ c main_arg9 (by decide)).trans <|
    (W6_of_ne m ρ c main_arg9 (by decide)).trans (W5_launch m ρ c main_arg9 (by decide) (by decide) (by decide) (by decide) (by decide))

/-- The second projection's output array. -/
theorem W10_v29 : W10 m ρ c (Proc.devRef .tc main_v29)
    = val_main_v50 (F := Ideal) (a0 m c) (a1 m c) (a2 m c) (a7 m c) (a8 m c) (a9 m c) :=
  (W10_arr m ρ c 3).trans <|
    (Cert.Bridge.project2 (V9 m ρ) c (val_main_v33 (F := Ideal) (a0 m c) (a1 m c) (a2 m c) (a7 m c) (a8 m c)) (val_main_v9 (F := Ideal) (a1 m c)) (a9 m c)
      (W9_v27 m ρ c) (W9_v28 m ρ c) (W9_a9 m ρ c)).trans
    (proj_stage2 (a0 m c) (a1 m c) (a2 m c) (a7 m c) (a8 m c) (a9 m c))

theorem W10_a1 : W10 m ρ c (Proc.devRef .tc main_arg1) = a1 m c :=
  (W10_from5 m ρ c main_arg1 (by decide) (by decide) (by decide) (by decide) (by decide)).trans (W5_launch m ρ c main_arg1 (by decide) (by decide) (by decide) (by decide) (by decide))
theorem W10_a2 : W10 m ρ c (Proc.devRef .tc main_arg2) = a2 m c :=
  (W10_from5 m ρ c main_arg2 (by decide) (by decide) (by decide) (by decide) (by decide)).trans (W5_launch m ρ c main_arg2 (by decide) (by decide) (by decide) (by decide) (by decide))
theorem W10_a10 : W10 m ρ c (Proc.devRef .tc main_arg10) = a10 m c :=
  (W10_from5 m ρ c main_arg10 (by decide) (by decide) (by decide) (by decide) (by decide)).trans (W5_launch m ρ c main_arg10 (by decide) (by decide) (by decide) (by decide) (by decide))
theorem W10_v12 : W10 m ρ c (Proc.devRef .tc main_v12) = val_main_v12 (F := Ideal) (a2 m c) :=
  (W10_from5 m ρ c main_v12 (by decide) (by decide) (by decide) (by decide) (by decide)).trans (W5_v12 m ρ c)

theorem W11_v39 : W11 m ρ c (Proc.devRef .tc main_v39)
    = val_main_v60 (F := Ideal) (a0 m c) (a1 m c) (a2 m c) (a7 m c) (a8 m c) (a9 m c) :=
  st3_v39 (W10 m ρ c) (a0 m c) (a1 m c) (a2 m c) (a7 m c) (a8 m c) (a9 m c) (W10_v29 m ρ c) (W10_a1 m ρ c) (W10_a2 m ρ c)
theorem W11_v40 : W11 m ρ c (Proc.devRef .tc main_v40) = shapeCast S50000x1 (val_main_v12 (F := Ideal) (a2 m c)) Facts₀.shapeCasts_S50000_S50000x1 :=
  st3_v40 (W10 m ρ c) (val_main_v12 (F := Ideal) (a2 m c)) (W10_v12 m ρ c)
theorem W11_v41 : W11 m ρ c (Proc.devRef .tc main_v41) = shapeCast S1x128 (a10 m c) Facts₀.shapeCasts_S128_S1x128 :=
  st3_v41 (W10 m ρ c) (a10 m c) (W10_a10 m ρ c)

/-- The node features both edge scorings gather from. -/
theorem W12_v42 : W12 m ρ c (Proc.devRef .tc main_v42)
    = val_main_v67 (F := Ideal) (a0 m c) (a1 m c) (a2 m c) (a7 m c) (a8 m c) (a9 m c) (a10 m c) :=
  (W12_arr m ρ c 3).trans <|
    (Cert.Bridge.finalize3 (V11 m ρ) c (val_main_v60 (F := Ideal) (a0 m c) (a1 m c) (a2 m c) (a7 m c) (a8 m c) (a9 m c)) (val_main_v12 (F := Ideal) (a2 m c)) (a10 m c)
      (W11_v39 m ρ c) (W11_v40 m ρ c) (W11_v41 m ρ c)).trans
    (fin_stage2 (a0 m c) (a1 m c) (a2 m c) (a7 m c) (a8 m c) (a9 m c) (a10 m c))

/-! ## The edge scores -/

theorem W12_a3 : W12 m ρ c (Proc.devRef .tc main_arg3) = a3 m c :=
  (W12_from10 m ρ c main_arg3 (by decide) (by decide)).trans <| (W10_from5 m ρ c main_arg3 (by decide) (by decide) (by decide) (by decide) (by decide)).trans (W5_launch m ρ c main_arg3 (by decide) (by decide) (by decide) (by decide) (by decide))
theorem W12_a4 : W12 m ρ c (Proc.devRef .tc main_arg4) = a4 m c :=
  (W12_from10 m ρ c main_arg4 (by decide) (by decide)).trans <| (W10_from5 m ρ c main_arg4 (by decide) (by decide) (by decide) (by decide) (by decide)).trans (W5_launch m ρ c main_arg4 (by decide) (by decide) (by decide) (by decide) (by decide))

/-- The positive edges' scores. -/
theorem W14_v57 : W14 m ρ c (Proc.devRef .tc main_v57)
    = val_main_v84 (F := Ideal) (a0 m c) (a1 m c) (a2 m c) (a3 m c) (a4 m c) (a7 m c) (a8 m c) (a9 m c) (a10 m c) :=
  (W14_arr m ρ c 2).trans <|
    (Cert.Bridge.edgeDot4 (V13 m ρ) c _ _
      (st4_v49 (W12 m ρ c) _ (a3 m c) (W12_v42 m ρ c) (W12_a3 m ρ c))
      (st4_v56 (W12 m ρ c) _ (a4 m c) (W12_v42 m ρ c) (W12_a4 m ρ c))).trans
    (dot_stage_pos (a0 m c) (a1 m c) (a2 m c) (a3 m c) (a4 m c) (a7 m c) (a8 m c) (a9 m c) (a10 m c))

theorem W14_v42 : W14 m ρ c (Proc.devRef .tc main_v42)
    = val_main_v67 (F := Ideal) (a0 m c) (a1 m c) (a2 m c) (a7 m c) (a8 m c) (a9 m c) (a10 m c) :=
  (W14_from12 m ρ c main_v42 (by decide) (by decide)).trans (W12_v42 m ρ c)
theorem W14_a5 : W14 m ρ c (Proc.devRef .tc main_arg5) = a5 m c :=
  (W14_from12 m ρ c main_arg5 (by decide) (by decide)).trans <| (W12_from10 m ρ c main_arg5 (by decide) (by decide)).trans <|
    (W10_from5 m ρ c main_arg5 (by decide) (by decide) (by decide) (by decide) (by decide)).trans (W5_launch m ρ c main_arg5 (by decide) (by decide) (by decide) (by decide) (by decide))
theorem W14_a6 : W14 m ρ c (Proc.devRef .tc main_arg6) = a6 m c :=
  (W14_from12 m ρ c main_arg6 (by decide) (by decide)).trans <| (W12_from10 m ρ c main_arg6 (by decide) (by decide)).trans <|
    (W10_from5 m ρ c main_arg6 (by decide) (by decide) (by decide) (by decide) (by decide)).trans (W5_launch m ρ c main_arg6 (by decide) (by decide) (by decide) (by decide) (by decide))

/-- The negative edges' scores: the second result. -/
theorem W16_v72 : W16 m ρ c (Proc.devRef .tc main_v72)
    = val_main_v101 (F := Ideal) (a0 m c) (a1 m c) (a2 m c) (a5 m c) (a6 m c) (a7 m c) (a8 m c) (a9 m c) (a10 m c) :=
  (W16_arr m ρ c 2).trans <|
    (Cert.Bridge.edgeDot5 (V15 m ρ) c _ _
      (st5_v64 (W14 m ρ c) _ (a5 m c) (W14_v42 m ρ c) (W14_a5 m ρ c))
      (st5_v71 (W14 m ρ c) _ (a6 m c) (W14_v42 m ρ c) (W14_a6 m ρ c))).trans
    (dot_stage_neg (a0 m c) (a1 m c) (a2 m c) (a5 m c) (a6 m c) (a7 m c) (a8 m c) (a9 m c) (a10 m c))

/-- The first result is not touched after the fifth pallas_call wrote it. -/
theorem W16_v57 : W16 m ρ c (Proc.devRef .tc main_v57)
    = val_main_v84 (F := Ideal) (a0 m c) (a1 m c) (a2 m c) (a3 m c) (a4 m c) (a7 m c) (a8 m c) (a9 m c) (a10 m c) :=
  (W16_of_ne m ρ c main_v57 (by decide)).trans <| (W15_of m ρ c main_v57 (by decide)).trans (W14_v57 m ρ c)

end Cert.KernelIdeal.Chain

end
-- ==== Proof.lean ====
/-
  A two-layer graph convolution with symmetric degree normalisation, then a dot-product score per edge, against its
  plain array reference. Per layer: h ↦ relu(D_in^(-1/2) · Aᵀ · ((D_out^(-1/2) · h) W) + b), the degrees clamped below at
  one; then score(u, v) = Σ_k h[u, k] · h[v, k] over the positive and the negative edges.

  The kernel program runs the projection, the node update and the edge score as pallas_calls (row blocks of 5000 nodes
  or 8000 edges) and everything else — degree counts, gathers, scatter-adds — as the very host operations the reference
  runs. Over the extended reals a change of float format is the identity, a matrix product into a zero accumulator is
  the plain sum over the contracted axis and a lane sum is the plain row sum, so each pallas_call's output array is,
  index by index, the reference's matching stretch applied to the same operand arrays (Project, Finalize, EdgeDot); no
  law is used that would need the inputs finite. Chained through the host stretches (Chain, Values) the two result
  arrays of the kernel program are the reference's last two stages of the launch arguments; the reference's run ends at
  the same stages, and the arguments agree by hypothesis. The kernel counts the degrees once and the reference once per
  layer: the second count is the same term.

  The ideal pass rewrote nothing, so `preserves` is `True`.
-/
import proofs.«178768_j4733053960250_1_alg».proof.Defs
import proofs.«178768_j4733053960250_1_alg».proof.Proof.Gen.Kernel
import proofs.«178768_j4733053960250_1_alg».proof.Proof.Gen.Kernel.Skeleton
import proofs.«178768_j4733053960250_1_alg».proof.Proof.Gen.Kernel.Launch
import proofs.«178768_j4733053960250_1_alg».proof.Proof.Gen.Kernel.Points
import proofs.«178768_j4733053960250_1_alg».proof.Proof.Gen.Kernel.Frame
import proofs.«178768_j4733053960250_1_alg».proof.Proof.Gen.KernelIdeal
import proofs.«178768_j4733053960250_1_alg».proof.Proof.Gen.KernelIdeal.Skeleton
import proofs.«178768_j4733053960250_1_alg».proof.Proof.Gen.KernelIdeal.Launch
import proofs.«178768_j4733053960250_1_alg».proof.Proof.Gen.KernelIdeal.Points
import proofs.«178768_j4733053960250_1_alg».proof.Proof.Gen.KernelIdeal.Frame
import proofs.«178768_j4733053960250_1_alg».proof.Proof.Gen.ReferenceIdeal
import proofs.«178768_j4733053960250_1_alg».proof.Proof.Gen.ReferenceIdeal.Run
import proofs.«178768_j4733053960250_1_alg».proof.Proof.Gen.ReferenceIdeal.Read
import proofs.«178768_j4733053960250_1_alg».proof.Proof.Gen.Pre_finite_inputs
import proofs.«178768_j4733053960250_1_alg».proof.Proof.ValueRun
import proofs.«178768_j4733053960250_1_alg».proof.Proof.Values
import Idealize.ShloMosaic.Adequacy
import Idealize.ShloMosaic.Init

set_option maxRecDepth 16384

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- And the reference: its run, the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the positive scores at the reference's stage of
    the arguments for them and the negative scores at its stage for those. -/
theorem algebraic : Cert.algebraic_KernelIdeal_ReferenceIdeal := by
  intro m ρ m' ρ' _ hagree
  refine ⟨fun c => Cert.ReferenceIdeal.Read.val_main_v84 (F := Ideal) (Cert.KernelIdeal.Chain.a0 m c) (Cert.KernelIdeal.Chain.a1 m c)
        (Cert.KernelIdeal.Chain.a2 m c) (Cert.KernelIdeal.Chain.a3 m c) (Cert.KernelIdeal.Chain.a4 m c) (Cert.KernelIdeal.Chain.a7 m c)
        (Cert.KernelIdeal.Chain.a8 m c) (Cert.KernelIdeal.Chain.a9 m c) (Cert.KernelIdeal.Chain.a10 m c),
      fun c => Cert.ReferenceIdeal.Read.val_main_v101 (F := Ideal) (Cert.KernelIdeal.Chain.a0 m c) (Cert.KernelIdeal.Chain.a1 m c)
        (Cert.KernelIdeal.Chain.a2 m c) (Cert.KernelIdeal.Chain.a5 m c) (Cert.KernelIdeal.Chain.a6 m c) (Cert.KernelIdeal.Chain.a7 m c)
        (Cert.KernelIdeal.Chain.a8 m c) (Cert.KernelIdeal.Chain.a9 m c) (Cert.KernelIdeal.Chain.a10 m c), ?_, ?_⟩
  · exact (θ_run Cert.KernelIdeal.defs _ _).mono
      (fun r h c => ⟨(h c).1.trans (Cert.KernelIdeal.Chain.W16_v57 m ρ c), (h c).2.1.trans (Cert.KernelIdeal.Chain.W16_v72 m ρ c), (h c).2.2⟩)
      (Cert.KernelIdeal.ValueRun.run_values (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨e0, e1, e2, e3, e4, e5, e6, e7, e8, e9, e10⟩ := hagree c
      rw [Cert.ReferenceIdeal.Read.val_main_v84_eq, e0, e1, e2, e3, e4, e7, e8, e9, e10]
    · obtain ⟨e0, e1, e2, e3, e4, e5, e6, e7, e8, e9, e10⟩ := hagree c
      rw [Cert.ReferenceIdeal.Read.val_main_v101_eq, e0, e1, e2, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
